-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_arg4 : FVec F S32x4096 .f32) (main_arg5 : FVec F S4096x32 .f32) (main_arg6 : FVec F S32x4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S32x4096 .f32 := Host.absf main_arg4
  let main_cst_6 : FVec F S_ .f32 := constant S_ .f32 0x7F800000#32
  let main_v20 : FVec F S32x4096 .f32 := broadcastInDim S32x4096 ![] bcast_S_S32x4096 main_cst_6
  let main_v21 : IVec S32x4096 1 := cmpf .olt main_v19 main_v20
  let main_c_7 : IVec S_ 1 := constantI S_ 1 1#1
  let main_v22 : IVec S_ 1 := (fun x v => Host.reduce IntOp.andi x v reducesTo_S32x4096_S_d0_1 h_S_) main_v21 main_c_7
  let main_v23 : IVec S_ 1 := andi main_v18 main_v22
  let main_v24 : FVec F S4096x32 .f32 := Host.absf main_arg5
  let main_cst_8 : FVec F S_ .f32 := constant S_ .f32 0x7F800000#32
  let main_v25 : FVec F S4096x32 .f32 := broadcastInDim S4096x32 ![] bcast_S_S4096x32 main_cst_8
  let main_v26 : IVec S4096x32 1 := cmpf .olt main_v24 main_v25
  let main_c_9 : IVec S_ 1 := constantI S_ 1 1#1
  let main_v27 : IVec S_ 1 := (fun x v => Host.reduce IntOp.andi x v reducesTo_S4096x32_S_d0_1 h_S_) main_v26 main_c_9
  let main_v28 : IVec S_ 1 := andi main_v23 main_v27
  let main_v29 : FVec F S32x4096 .f32 := Host.absf main_arg6
  let main_cst_10 : FVec F S_ .f32 := constant S_ .f32 0x7F800000#32
  let main_v30 : FVec F S32x4096 .f32 := broadcastInDim S32x4096 ![] bcast_S_S32x4096 main_cst_10
  let main_v31 : IVec S32x4096 1 := cmpf .olt main_v29 main_v30
  let main_c_11 : IVec S_ 1 := constantI S_ 1 1#1
  let main_v32 : IVec S_ 1 := (fun x v => Host.reduce IntOp.andi x v reducesTo_S32x4096_S_d0_1 h_S_) main_v31 main_c_11
  let main_v33 : IVec S_ 1 := andi main_v28 main_v32
  main_v33

def fn {F : FTy → Type} [FloatOps F] (main_arg0 : FVec F S4x4096x4096 .f32) (main_arg1 : FVec F S4096x4096 .f32) (main_arg2 : FVec F S4096 .f32) (main_arg3 : FVec F S4096x32 .f32) (main_arg4 : FVec F S32x4096 .f32) (main_arg5 : FVec F S4096x32 .f32) (main_arg6 : FVec F S32x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_arg6 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S1024x1024 : Shape := ⟨2, ![1024, 1024]⟩
abbrev S1024x32 : Shape := ⟨2, ![1024, 32]⟩
abbrev S32x1024 : Shape := ⟨2, ![32, 1024]⟩
abbrev S16384x4096 : Shape := ⟨2, ![16384, 4096]⟩
abbrev S2048x1024 : Shape := ⟨2, ![2048, 1024]⟩
abbrev S1024 : Shape := ⟨1, ![1024]⟩
abbrev S1x1024 : Shape := ⟨2, ![1, 1024]⟩

abbrev nBuf : Space → Nat
  | .hbm => 12
  | .vmem => 21
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S32x4096, .f32⟩
  | .hbm, ⟨5, _⟩ => ⟨S4096x32, .f32⟩
  | .hbm, ⟨6, _⟩ => ⟨S32x4096, .f32⟩
  | .hbm, ⟨7, _⟩ => ⟨S4096x4096, .bf16⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x32, .f32⟩
  | .local _ .vmem, ⟨3, _⟩ => ⟨S1024x32, .f32⟩
  | .local _ .vmem, ⟨4, _⟩ => ⟨S32x1024, .f32⟩
  | .local _ .vmem, ⟨5, _⟩ => ⟨S32x1024, .f32⟩
  | .local _ .vmem, ⟨6, _⟩ => ⟨S1024x32, .f32⟩
  | .local _ .vmem, ⟨7, _⟩ => ⟨S1024x32, .f32⟩
  | .local _ .vmem, ⟨8, _⟩ => ⟨S32x1024, .f32⟩
  | .local _ .vmem, ⟨9, _⟩ => ⟨S32x1024, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024, .f32⟩
  | .local _ .vmem, ⟨17, _⟩ => ⟨S1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x32_S1024x32_0_0 : ∀ a, (![0, 0] : Fin 2 → Nat) a + S1024x32.size a ≤ S1024x32.size a
  h_S1024x32 : 0 < S1024x32.numel
  bitsLt_bf16_f32 : FTy.bits .bf16 < FTy.bits .f32
  inb_S32x1024_S32x1024_0_0 : ∀ a, (![0, 0] : Fin 2 → Nat) a + S32x1024.size a ≤ S32x1024.size a
  h_S32x1024 : 0 < S32x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4x4096x4096_S16384x4096 : S4x4096x4096.ShapeCasts S16384x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S2048x1024 : S1x1024.Broadcasts S2048x1024
  shapeCasts_S16384x4096_S4x4096x4096 : S16384x4096.ShapeCasts S4x4096x4096
  dot_S1024x32_S32x1024_S1024x1024_1_0_0_1_n_n_wf : DotDims.WF S1024x32 S32x1024 S1024x1024 [1] [0] [0] [1] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S4096x32.size a
  hwx0_1 : ∀ i : grid0.Coords, EltTy.bits .f32 = 32 ∨ (Rect.block (s := S4096x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x4096.size a
  hwx0_2 : ∀ i : grid0.Coords, EltTy.bits .f32 = 32 ∨ (Rect.block (s := S32x4096) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x4096.size a
  hwx0_4 : ∀ i : grid0.Coords, EltTy.bits .f32 = 32 ∨ (Rect.block (s := S32x4096) S32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .bf16 = 32 ∨ (Rect.block (s := S4096x4096) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x4096.size a
  hwx1_0 : ∀ i : grid1.Coords, EltTy.bits .bf16 = 32 ∨ (Rect.block (s := S16384x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S16384x4096.size a
  hwx1_3 : ∀ i : grid1.Coords, EltTy.bits .f32 = 32 ∨ (Rect.block (s := S16384x4096) S2048x1024.size (cc1_transform_3 i) (hinb1_3 i)).WholeWords (EltTy.packing .f32)

variable [Facts₀]

def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x32 : Shape := ⟨2, ![4096, 32]⟩
abbrev S32x4096 : Shape := ⟨2, ![32, 4096]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x32, .f32⟩
  | .hbm, ⟨4, _⟩ => ⟨S32x4096, .f32⟩
  | .hbm, ⟨5, _⟩ => ⟨S4096x32, .f32⟩
  | .hbm, ⟨6, _⟩ => ⟨S32x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x32_S32x4096_S4096x4096_1_0_0_1_n_n_wf : DotDims.WF S4096x32 S32x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Bits.WeightTile.lean ====
/-
  Region 0 of @main, the tile kernel that rebuilds the merged weight: at grid point (o, i) it reads the 1024×1024
  tile of the base weight and the four low-rank factors' 1024×32 / 32×1024 strips, and stores
  base + (A₁·B₁) ∘ (A₂·B₂) · ½ into the output tile. Every operand is a pipeline window read whole and the one
  store covers the output tile, so what the output's staging buffer holds after the body is one pure function of
  the five input blocks; nothing is carried between points. Stated at any float instance.
-/
import proofs.«109634_j3753801417310_1_alg».proof.Proof.Gen.Kernel.Launch
import proofs.«109634_j3753801417310_1_alg».proof.Proof.Gen.Kernel.Skeleton
import proofs.«109634_j3753801417310_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/

theorem wbefore0_of {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)

theorem wbefore1_of {c : Dev nD} (dat : Dat τ (Elt F) Unit ℕ (UR sig nD τ) ℕ cfg0 c) (hA : dat.A 1 = V c (Pipeline.arrRef spec0 1))
    (hafter : ∀ t, dat.after 1 t = wblk V c 1 t) (t : Fin cfg0.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)

theorem wbefore2_of {c : Dev nD} (dat : Dat τ (Elt F) Unit ℕ (UR sig nD τ) ℕ cfg0 c) (hA : dat.A 2 = V c (Pipeline.arrRef spec0 2))
    (hafter : ∀ t, dat.after 2 t = wblk V c 2 t) (t : Fin cfg0.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)

theorem wbefore3_of {c : Dev nD} (dat : Dat τ (Elt F) Unit ℕ (UR sig nD τ) ℕ cfg0 c) (hA : dat.A 3 = V c (Pipeline.arrRef spec0 3))
    (hafter : ∀ t, dat.after 3 t = wblk V c 3 t) (t : Fin cfg0.N) (d) : dat.before 3 t d = wblk V c 3 t :=
  (dat.before_in_eq_fetched 3 rfl (fun _ => rfl) (fun _ _ _ => rfl) (fun t => by rw [hafter]; unfold Dat.blockOf wblk; rw [hA]; try rfl) t d).trans
    (by unfold Dat.fetched Dat.blockOf wblk; rw [hA]; try rfl)

theorem wbefore4_of {c : Dev nD} (dat : Dat τ (Elt F) Unit ℕ (UR sig nD τ) ℕ cfg0 c) (hA : dat.A 4 = V c (Pipeline.arrRef spec0 4))
    (hafter : ∀ t, dat.after 4 t = wblk V c 4 t) (t : Fin cfg0.N) (d) : dat.before 4 t d = wblk V c 4 t :=
  (dat.before_in_eq_fetched 4 rfl (fun _ => rfl) (fun _ _ _ => rfl) (fun t => by rw [hafter]; unfold Dat.blockOf wblk; rw [hA]; try rfl) t d).trans
    (by unfold Dat.fetched Dat.blockOf wblk; rw [hA]; try rfl)

/-! ## The body's one store -/

/-- The whole tile, and the whole strips, as rectangles. -/
abbrev tileRect : Rect S1024x1024 := Rect.unit (s := S1024x1024) ![0, 0] S1024x1024.size inb_S1024x1024_S1024x1024_0_0
abbrev colRect : Rect S1024x32 := Rect.unit (s := S1024x32) ![0, 0] S1024x32.size inb_S1024x32_S1024x32_0_0
abbrev rowRect : Rect S32x1024 := Rect.unit (s := S32x1024) ![0, 0] S32x1024.size inb_S32x1024_S32x1024_0_0

/-- What the body leaves in the output tile's staging buffer: its one store, over the five input blocks. -/
def wOut (w0 : Vec F S1024x1024 .f32) (a1 : Vec F S1024x32 .f32) (b1 : Vec F S32x1024 .f32) (a2 : Vec F S1024x32 .f32) (b2 : Vec F S32x1024 .f32) :
    Vec F S1024x1024 .bf16 :=
  View.canon [⟨tileRect, k0_pay1 (View.ld a1 colRect) (View.ld b1 rowRect) (View.ld a2 colRect) (View.ld b2 rowRect) (View.ld w0 tileRect)⟩]

/-- The one store covers the tile. -/
theorem wOut_cover (p0 : Vec F S1024x1024 .bf16) (y : S1024x1024.Idx) :
    ∃ pc ∈ ([⟨tileRect, p0⟩] : List (View.Piece (Elt F) S1024x1024 .bf16)), y ∈ pc.1.set :=
  View.cover_of_tiled [⟨tileRect, p0⟩] S1024x1024.size (by rfl) y

set_option maxHeartbeats 1000000 in
/-- The tile kernel on whole staging memrefs, the inputs' at known contents and the output's at anything, runs to the
    continuation with the inputs untouched and the output tile at `wOut` of them. -/
theorem weight_kernel_run (c : Dev nD) (E : Set ℕ) (i : grid0.Coords)
    (arg2 : Memref sig .tc .vmem S1024x1024 .f32) (harg2 : arg2.IsWhole) (arg3 : Memref sig .tc .vmem S1024x32 .f32) (harg3 : arg3.IsWhole)
    (arg4 : Memref sig .tc .vmem S32x1024 .f32) (harg4 : arg4.IsWhole) (arg5 : Memref sig .tc .vmem S1024x32 .f32) (harg5 : arg5.IsWhole)
    (arg6 : Memref sig .tc .vmem S32x1024 .f32) (harg6 : arg6.IsWhole) (arg7 : Memref sig .tc .vmem S1024x1024 .bf16) (harg7 : arg7.IsWhole)
    (w0 : Vec F S1024x1024 .f32) (a1 : Vec F S1024x32 .f32) (b1 : Vec F S32x1024 .f32) (a2 : Vec F S1024x32 .f32) (b2 : Vec F S32x1024 .f32)
    (K : PUnit → sProp 𝕄) :
    iprop(owns (c : Thread nD τ) arg2 fullShare w0 ∗ owns (c : Thread nD τ) arg3 fullShare a1 ∗ owns (c : Thread nD τ) arg4 fullShare b1
        ∗ owns (c : Thread nD τ) arg5 fullShare a2 ∗ owns (c : Thread nD τ) arg6 fullShare b2 ∗ (∃ d, owns (c : Thread nD τ) arg7 fullShare d)
        ∗ (iprop(owns (c : Thread nD τ) arg2 fullShare w0 ∗ owns (c : Thread nD τ) arg3 fullShare a1 ∗ owns (c : Thread nD τ) arg4 fullShare b1
            ∗ owns (c : Thread nD τ) arg5 fullShare a2 ∗ owns (c : Thread nD τ) arg6 fullShare b2
            ∗ owns (c : Thread nD τ) arg7 fullShare (wOut w0 a1 b1 a2 b2)) -∗ K ⟨⟩))
      ⊢ wp frame (wpE (defs₀ (F := F)) Variants.none c none) E (cc0__weight_kernel i arg2 harg2 arg3 harg3 arg4 harg4 arg5 harg5 arg6 harg6 arg7 harg7) K := by
  simp only [cc0__weight_kernel_eq_skeleton]; unfold cc0__weight_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (wOut_cover _)

/-! ## The pipeline's proof data -/

/-- The proof data of pipeline 0 on core `c`: the arrays as the region finds them; after the body at point `t` each
    input's buffer at its block and the output's at `wOut` of the input blocks; the invariant is the scoped rest and the
    generator register, untouched; nothing owed; full shares. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wblk V c 1 t
    | ⟨2, _⟩ => wblk V c 2 t
    | ⟨3, _⟩ => wblk V c 3 t
    | ⟨4, _⟩ => wblk V c 4 t
    | ⟨5, _⟩ => wOut (wblk V c 0 t) (wblk V c 1 t) (wblk V c 2 t) (wblk V c 3 t) (wblk V c 4 t)
  Φ _ := Pipeline.ΦA spec0 c
  q _ := fullShare
  owed _ := 0

theorem wdat_A (c : Dev nD) (w : Fin cfg0.W) : (wdat V c).A w = V c (Pipeline.arrRef spec0 w) := by
  dsimp only [wdat]

theorem wafter0 (c : Dev nD) (t : Fin cfg0.N) : (wdat V c).after 0 t = wblk V c 0 t := by dsimp only [wdat]
theorem wafter1 (c : Dev nD) (t : Fin cfg0.N) : (wdat V c).after 1 t = wblk V c 1 t := by dsimp only [wdat]
theorem wafter2 (c : Dev nD) (t : Fin cfg0.N) : (wdat V c).after 2 t = wblk V c 2 t := by dsimp only [wdat]
theorem wafter3 (c : Dev nD) (t : Fin cfg0.N) : (wdat V c).after 3 t = wblk V c 3 t := by dsimp only [wdat]
theorem wafter4 (c : Dev nD) (t : Fin cfg0.N) : (wdat V c).after 4 t = wblk V c 4 t := by dsimp only [wdat]
theorem wafter5 (c : Dev nD) (t : Fin cfg0.N) :
    (wdat V c).after 5 t = wOut (wblk V c 0 t) (wblk V c 1 t) (wblk V c 2 t) (wblk V c 3 t) (wblk V c 4 t) := by dsimp only [wdat]

theorem wbefore0 (c : Dev nD) (t : Fin cfg0.N) (d) : (wdat V c).before 0 t d = wblk V c 0 t :=
  wbefore0_of V (wdat V c) (wdat_A V c 0) (wafter0 V c) t d
theorem wbefore1 (c : Dev nD) (t : Fin cfg0.N) (d) : (wdat V c).before 1 t d = wblk V c 1 t :=
  wbefore1_of V (wdat V c) (wdat_A V c 1) (wafter1 V c) t d
theorem wbefore2 (c : Dev nD) (t : Fin cfg0.N) (d) : (wdat V c).before 2 t d = wblk V c 2 t :=
  wbefore2_of V (wdat V c) (wdat_A V c 2) (wafter2 V c) t d
theorem wbefore3 (c : Dev nD) (t : Fin cfg0.N) (d) : (wdat V c).before 3 t d = wblk V c 3 t :=
  wbefore3_of V (wdat V c) (wdat_A V c 3) (wafter3 V c) t d
theorem wbefore4 (c : Dev nD) (t : Fin cfg0.N) (d) : (wdat V c).before 4 t d = wblk V c 4 t :=
  wbefore4_of V (wdat V c) (wdat_A V c 4) (wafter4 V c) t d

/-! ## The body obligation -/

/-- What the body is called with at point `t`, the windows one by one, -/
def wbodyPre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d))
    ∗ (∃ d, owns (c : Thread nD τ) (st0_2 t) fullShare ((wdat V c).before 2 t d))
    ∗ (∃ d, owns (c : Thread nD τ) (st0_3 t) fullShare ((wdat V c).before 3 t d))
    ∗ (∃ d, owns (c : Thread nD τ) (st0_4 t) fullShare ((wdat V c).before 4 t d))
    ∗ (∃ d, owns (c : Thread nD τ) (st0_5 t) fullShare ((wdat V c).before 5 t d)))

/-- and what it returns. -/
def wbodyPost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t)
    ∗ owns (c : Thread nD τ) (st0_2 t) fullShare ((wdat V c).after 2 t)
    ∗ owns (c : Thread nD τ) (st0_3 t) fullShare ((wdat V c).after 3 t)
    ∗ owns (c : Thread nD τ) (st0_4 t) fullShare ((wdat V c).after 4 t)
    ∗ owns (c : Thread nD τ) (st0_5 t) fullShare ((wdat V c).after 5 t))

/-- The body at any point: the inputs' memrefs hold their blocks, so the kernel's run applies; the invariant and the
    core's dues pass through unread. -/
theorem wsound_body (c : Dev nD) (t : Fin cfg0.N) :
    wbodyPre V c t ⊢ wp frame (wpE (defs₀ (F := F)) Variants.none c none) Set.univ (bodyAt0 t) (fun _ => wbodyPost V c t) := by
  unfold wbodyPre wbodyPost bodyAt0
  simp only [wbefore0, wbefore1, wbefore2, wbefore3, wbefore4]
  rw [show (wdat V c).Φ t.succ = (wdat V c).Φ t.castSucc from rfl,
    show (wdat V c).owesAt () t.succ = (wdat V c).owesAt () t.castSucc from rfl,
    wafter0, wafter1, wafter2, wafter3, wafter4, wafter5]
  iintro ⟨HΦ, Ho, ⟨%d0, H0⟩, ⟨%d1, H1⟩, ⟨%d2, H2⟩, ⟨%d3, H3⟩, ⟨%d4, H4⟩, ⟨%d5, H5⟩⟩
  iapply (weight_kernel_run c Set.univ _ _ _ _ _ _ _ _ _ _ _ _ _ (wblk V c 0 t) (wblk V c 1 t) (wblk V c 2 t) (wblk V c 3 t) (wblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem wbody_obligation (c : Dev nD) : BodyObligation (wdat (F := F) V c) (defs₀ (F := F)) Variants.none () Set.univ := fun t => by
  rw [bigSep_W0, bigSep_W0]
  exact wsound_body V c t

end Cert.Kernel.Frm

end
-- ==== Proof.Bits.AccTile.lean ====
/-
  Region 1 of @main, the tiled product with the bias: the grid runs over (row tile, output tile, k-step); at each point
  the kernel adds the product of a 2048×1024 tile of the activations with a 1024×1024 tile of the merged weight
  (contracted along the weight's second axis) into a 2048×1024 scratch accumulator, which it zeroes first on the first
  k-step; on the last k-step it stores accumulator + bias row into the output tile. The accumulator lives in a scratch
  buffer that the pipeline does not stage, so the region's invariant has to say what it holds between points: after
  point n, the fold `accAt n` of the k-steps since the last zeroing. The output tile is stored, and written back, only
  on the last k-step; elsewhere its staging buffer is handed back untouched. Stated at any float instance.
-/
import proofs.«109634_j3753801417310_1_alg».proof.Proof.Gen.Kernel.Launch
import proofs.«109634_j3753801417310_1_alg».proof.Proof.Gen.Kernel.Skeleton
import proofs.«109634_j3753801417310_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each input's staging buffer holds its block at every point, fetched there or not -/

theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-! ## The two branches, decided over the grid -/

abbrev isFirst (i : grid1.Coords) : Prop := (Scalar.cmpi .ne (Scalar.extui (Scalar.cmpi .eq (BitVec.ofNat 32 (i 2).val) 0#32)) 0#32) = 1#1
abbrev isLast (i : grid1.Coords) : Prop := k1_cond2 i = 1#1

/-- The zeroing branch is taken exactly on the first k-step, -/
theorem hfirst : ∀ t : Fin cfg1.N, isFirst (grid1.coords t) ↔ t.val % 4 = 0 :=
  (by decide +kernel : ∀ t : Fin grid1.N, isFirst (grid1.coords t) ↔ t.val % 4 = 0)
/-- the storing branch exactly on the last. -/
theorem hlast : ∀ t : Fin cfg1.N, isLast (grid1.coords t) ↔ t.val % 4 = 3 :=
  (by decide +kernel : ∀ t : Fin grid1.N, isLast (grid1.coords t) ↔ t.val % 4 = 3)

/-- The inputs are never idle; the output tile is idle, and not written back, off the last k-step. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬isLast (grid1.coords t) → cfg1.idle 3 (grid1.coords t) = true := by decide +kernel
theorem noflush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The body, case by case -/

theorem zero2 : (![0, 0] : Fin S2048x1024.rank → Nat) = fun _ => 0 := by funext a; fin_cases a <;> rfl
theorem zero2w : (![0, 0] : Fin S1024x1024.rank → Nat) = fun _ => 0 := by funext a; fin_cases a <;> rfl
theorem zero1 : (![0] : Fin S1024.rank → Nat) = fun _ => 0 := by funext a; fin_cases a; rfl

/-- A whole-buffer store heading a list of stores covers the buffer. -/
theorem head_covers {e : EltTy} (P : S2048x1024.Idx → Elt F e) (L : List (View.Piece (Elt F) S2048x1024 e)) (y : S2048x1024.Idx) :
    ∃ p ∈ ((⟨Rect.unit ![0, 0] S2048x1024.size inb_S2048x1024_S2048x1024_0_0, P⟩ : View.Piece (Elt F) S2048x1024 e) :: L), y ∈ p.1.set :=
  ⟨_, List.mem_cons_self, View.mem_set_unit_zero zero2 inb_S2048x1024_S2048x1024_0_0 y⟩

/-- The accumulator after the first k-step: zeroed, then the tile product added. -/
def accFirst (x : Vec F S2048x1024 .bf16) (w : Vec F S1024x1024 .bf16) : Vec F S2048x1024 .f32 := k1_pay2 (k1_pay1 (F := F)) x w
/-- The accumulator after a later k-step: the tile product added to what the step before left. -/
def accNext (s : Vec F S2048x1024 .f32) (x : Vec F S2048x1024 .bf16) (w : Vec F S1024x1024 .bf16) : Vec F S2048x1024 .f32 := k1_pay2 s x w
/-- The output tile stored on the last k-step: the finished accumulator plus the bias row. -/
def outLast (s : Vec F S2048x1024 .f32) (x : Vec F S2048x1024 .bf16) (w : Vec F S1024x1024 .bf16) (b : Vec F S1024 .f32) : Vec F S2048x1024 .f32 :=
  k1_pay3 (k1_pay2 s x w) b

set_option maxHeartbeats 1000000 in
/-- First k-step (and not the last): the scratch, at anything, ends at `accFirst`; the output tile is not stored. -/
theorem run_first (c : Dev nD) (E : Set ℕ) (i : grid1.Coords) (hc0 : isFirst i) (hc1 : ¬ isLast i)
    (arg3 : Memref sig .tc .vmem S2048x1024 .bf16) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S2048x1024 .f32) (harg6 : arg6.IsWhole)
    (arg7 : Memref sig .tc .vmem S2048x1024 .f32) (harg7 : arg7.IsWhole)
    (x : Vec F S2048x1024 .bf16) (w : Vec F S1024x1024 .bf16) (b : Vec F S1024 .f32) (y : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare y ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare y ∗ owns (c : Thread nD τ) arg7 fullShare (accFirst x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (head_covers _ _), View.canon_cons_unit_zero (S := S2048x1024) zero2]
  sl_unfold_words
  unfold accFirst
  simp only [View.readAt_eq_ld, View.ld_unit_zero (S := S2048x1024) zero2, View.ld_unit_zero (S := S1024x1024) zero2w, View.readCov_unit_zero (S := S2048x1024) _ zero2]

set_option maxHeartbeats 1000000 in
/-- A middle k-step: the scratch goes from `s` to `accNext s`; the output tile is not stored. -/
theorem run_mid (c : Dev nD) (E : Set ℕ) (i : grid1.Coords) (hc0 : ¬ isFirst i) (hc1 : ¬ isLast i)
    (arg3 : Memref sig .tc .vmem S2048x1024 .bf16) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S2048x1024 .f32) (harg6 : arg6.IsWhole)
    (arg7 : Memref sig .tc .vmem S2048x1024 .f32) (harg7 : arg7.IsWhole)
    (x : Vec F S2048x1024 .bf16) (w : Vec F S1024x1024 .bf16) (b : Vec F S1024 .f32) (s : Vec F S2048x1024 .f32) (y : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare y ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare y ∗ owns (c : Thread nD τ) arg7 fullShare (accNext s x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (head_covers _ _), View.canon_cons_unit_zero (S := S2048x1024) zero2]
  unfold accNext
  simp only [View.readAt_eq_ld, View.ld_unit_zero (S := S2048x1024) zero2, View.ld_unit_zero (S := S1024x1024) zero2w]

set_option maxHeartbeats 1000000 in
/-- The last k-step: the scratch goes from `s` to `accNext s`, and the output tile is stored at `outLast s`. -/
theorem run_last (c : Dev nD) (E : Set ℕ) (i : grid1.Coords) (hc0 : ¬ isFirst i) (hc1 : isLast i)
    (arg3 : Memref sig .tc .vmem S2048x1024 .bf16) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S2048x1024 .f32) (harg6 : arg6.IsWhole)
    (arg7 : Memref sig .tc .vmem S2048x1024 .f32) (harg7 : arg7.IsWhole)
    (x : Vec F S2048x1024 .bf16) (w : Vec F S1024x1024 .bf16) (b : Vec F S1024 .f32) (s : Vec F S2048x1024 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (outLast s x w b) ∗ owns (c : Thread nD τ) arg7 fullShare (accNext s x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (head_covers _ _), View.canon_cons_unit_zero (S := S2048x1024) zero2]
    sl_unfold_words
    unfold outLast
    simp only [View.readAt_eq_ld, View.ld_unit_zero (S := S2048x1024) zero2, View.ld_unit_zero (S := S1024x1024) zero2w, View.ld_unit_zero (S := S1024) zero1, View.readCov_unit_zero (S := S2048x1024) _ zero2]
  iexists _; isplitr
  swap; · iexact H4
  ipureintro
  sl_unfold_words
  rw [View.read_writes_eq_canon _ _ _ (head_covers _ _), View.canon_cons_unit_zero (S := S2048x1024) zero2]
  unfold accNext
  simp only [View.readAt_eq_ld, View.ld_unit_zero (S := S2048x1024) zero2, View.ld_unit_zero (S := S1024x1024) zero2w]

/-! ## What the accumulator holds after each point -/

/-- The scratch accumulator after the body at position `n`: on a first k-step the tile product over zero, otherwise
    the tile product added to what position `n - 1` left. -/
def accAt (c : Dev nD) : (n : ℕ) → n < cfg1.N → Vec F S2048x1024 .f32
  | 0, hn => accFirst (ablk V c 0 ⟨0, hn⟩) (ablk V c 1 ⟨0, hn⟩)
  | n + 1, hn =>
    if (n + 1) % 4 = 0 then accFirst (ablk V c 0 ⟨n + 1, hn⟩) (ablk V c 1 ⟨n + 1, hn⟩)
    else accNext (accAt c n (Nat.lt_of_succ_lt hn)) (ablk V c 0 ⟨n + 1, hn⟩) (ablk V c 1 ⟨n + 1, hn⟩)

theorem accAt_first (c : Dev nD) (t : Fin cfg1.N) (h : t.val % 4 = 0) :
    accAt V c t.val t.isLt = accFirst (ablk V c 0 t) (ablk V c 1 t) := by
  obtain ⟨n, hn⟩ := t
  cases n with
  | zero => rfl
  | succ n => exact if_pos h

theorem accAt_next (c : Dev nD) (t : Fin cfg1.N) (h : ¬t.val % 4 = 0) :
    accAt V c t.val t.isLt = accNext (accAt V c (t.val - 1) (Nat.lt_of_le_of_lt (Nat.sub_le _ _) t.isLt)) (ablk V c 0 t) (ablk V c 1 t) := by
  obtain ⟨n, hn⟩ := t
  cases n with
  | zero => exact absurd (Nat.zero_mod _) h
  | succ n => exact if_neg h

/-- The output tile's staging buffer after the body at `t`, where the body stores it (the last k-step): what the point
    before left in the accumulator, this step's product added, plus the bias row. Off the last k-step the buffer is
    idle and this value is consulted by nothing. -/
def outAt (c : Dev nD) (t : Fin cfg1.N) : Vec F S2048x1024 .f32 :=
  outLast (accAt V c (t.val - 1) (Nat.lt_of_le_of_lt (Nat.sub_le _ _) t.isLt)) (ablk V c 0 t) (ablk V c 1 t) (ablk V c 2 t)

/-! ## The region invariant: the accumulator between points -/

/-- The scratch accumulator as a memref. -/
abbrev accM : Memref sig .tc .vmem S2048x1024 .f32 := Memref.whole cc1_scratch0

/-- The core's scoped buffers that are neither a staging buffer of this call nor the accumulator, unopened. -/
abbrev otherScoped (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA1_eq (c : Dev nD) :
    (Pipeline.ΦA spec1 c : sProp 𝕄)
      = iprop(iprop((∃ d, owns (c : Thread nD τ) accM fullShare d) ∗ otherScoped c) ∗ (∃ r, prngReg c r)) := by
  unfold Pipeline.ΦA
  rw [Pipeline.scopedRest_split_of_list spec1 c [cc1_scratch0] (by decide) (by decide)]
  simp only [accM, owns_whole, bigSepL]
  rfl

/-- Before position `n`: at the region's entry the class invariant (the accumulator at anything); afterwards the
    accumulator at what position `n - 1` left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) accM fullShare (accAt V c n hn) ∗ otherScoped c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) accM fullShare (accAt V c n hn) ∗ otherScoped c) ∗ (∃ r, prngReg c r)) := rfl

theorem PhiS_pos (c : Dev nD) (n : ℕ) (h : n ≤ cfg1.N) (hz : n ≠ 0) :
    PhiS V c n h = iprop(iprop(owns (c : Thread nD τ) accM fullShare (accAt V c (n - 1) (by omega)) ∗ otherScoped c) ∗ (∃ r, prngReg c r)) := by
  cases n with
  | zero => exact absurd rfl hz
  | succ n => rfl

/-! ## The pipeline's proof data -/

/-- The proof data of pipeline 1 on core `c`: the arrays as the region finds them; after the body each input's buffer
    at its block and the output tile's at `outAt`; the invariant `PhiS`; nothing owed; full shares. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => outAt V c t
  Φ t := PhiS V c t.val (Nat.le_of_lt_succ t.isLt)
  q _ := fullShare
  owed _ := 0

theorem adat_A (c : Dev nD) (w : Fin cfg1.W) : (adat V c).A w = V c (Pipeline.arrRef spec1 w) := by
  dsimp only [adat]

theorem PhiS_castSucc (c : Dev nD) (t : Fin cfg1.N) :
    (adat V c).Φ t.castSucc = PhiS V c t.val (Nat.le_of_lt t.isLt) := by
  dsimp only [adat]; simp only [Fin.coe_castSucc]

theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = outAt V c t := by dsimp only [adat]

theorem abefore0 (c : Dev nD) (t : Fin cfg1.N) (d) : (adat V c).before 0 t d = ablk V c 0 t :=
  abefore0_of V (adat V c) (adat_A V c 0) (aafter0 V c) t d
theorem abefore1 (c : Dev nD) (t : Fin cfg1.N) (d) : (adat V c).before 1 t d = ablk V c 1 t :=
  abefore1_of V (adat V c) (adat_A V c 1) (aafter1 V c) t d
theorem abefore2 (c : Dev nD) (t : Fin cfg1.N) (d) : (adat V c).before 2 t d = ablk V c 2 t :=
  abefore2_of V (adat V c) (adat_A V c 2) (aafter2 V c) t d

theorem aleaves0 (c : Dev nD) (t : Fin cfg1.N) :
    (adat V c).leavesExact 0 t = owns (c : Thread nD τ) (st1_0 t) fullShare (ablk V c 0 t) := by
  unfold Dat.leavesExact; rw [live0 t, aafter0]
theorem aleaves1 (c : Dev nD) (t : Fin cfg1.N) :
    (adat V c).leavesExact 1 t = owns (c : Thread nD τ) (st1_1 t) fullShare (ablk V c 1 t) := by
  unfold Dat.leavesExact; rw [live1 t, aafter1]
theorem aleaves2 (c : Dev nD) (t : Fin cfg1.N) :
    (adat V c).leavesExact 2 t = owns (c : Thread nD τ) (st1_2 t) fullShare (ablk V c 2 t) := by
  unfold Dat.leavesExact; rw [live2 t, aafter2]
theorem aleaves3_last (c : Dev nD) (t : Fin cfg1.N) (h : isLast (grid1.coords t)) :
    (adat V c).leavesExact 3 t = owns (c : Thread nD τ) (st1_3 t) fullShare (outAt V c t) := by
  unfold Dat.leavesExact; rw [live3 t h, aafter3]

/-! ## The body obligation -/

/-- What the body is called with at point `t`, the windows one by one, -/
def abodyPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d)))

/-- and what it returns. -/
def abodyPost (c : Dev nD) (t : Fin cfg1.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t)

set_option maxHeartbeats 4800000 in
/-- The body at any point. The inputs' memrefs hold their blocks; the k-step's position in its group of four says which
    case runs; the invariant hands over the accumulator at what the point before left (at anything at the region's
    entry) and takes it back at this point's fold; off the last k-step the output tile's buffer comes back as it was. -/
theorem asound_body (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore0, abefore1, abefore2]
  rw [show (adat V c).owesAt () t.succ = (adat V c).owesAt () t.castSucc from rfl]
  rw [show (adat V c).Φ t.succ = PhiS V c (t.val + 1) t.isLt from rfl, PhiS_succ]
  rw [aleaves0, aleaves1, aleaves2]
  have hN : t.val < 128 := lt_of_lt_of_eq t.isLt (show cfg1.N = 128 from N_1)
  by_cases h0 : t.val % 4 = 0
  · have hf : isFirst (grid1.coords t) := (hfirst t).mpr h0
    have hl : ¬isLast (grid1.coords t) := fun h => by have := (hlast t).mp h; omega
    rw [Dat.leavesExact_idle (adat V c) 3 t (idle3 t hl) (noflush3 t hl), accAt_first V c t h0]
    by_cases hz : t.val = 0
    · rw [PhiS_castSucc V c t, PhiS_zero V c _ _ hz, PhiA1_eq]
      iintro ⟨⟨⟨HS, Hoth⟩, Hg⟩, Ho, ⟨%d0, H0⟩, ⟨%d1, H1⟩, ⟨%d2, H2⟩, ⟨%d3, H3⟩⟩
      iapply (run_first c Set.univ (grid1.coords t) hf hl _ _ _ _ _ _ _ _ _ _ (ablk V c 0 t) (ablk V c 1 t) (ablk V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_first c Set.univ (grid1.coords t) hf hl _ _ _ _ _ _ _ _ _ _ (ablk V c 0 t) (ablk V c 1 t) (ablk V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hf : ¬isFirst (grid1.coords t) := fun h => h0 ((hfirst t).mp h)
    have hz : t.val ≠ 0 := fun h => h0 (by rw [h])
    rw [accAt_next V c t h0, PhiS_castSucc V c t, PhiS_pos V c _ _ hz]
    by_cases h1 : t.val % 4 = 3
    · have hl : isLast (grid1.coords t) := (hlast t).mpr h1
      rw [aleaves3_last V c t hl]
      unfold outAt
      iintro ⟨⟨⟨HS, Hoth⟩, Hg⟩, Ho, ⟨%d0, H0⟩, ⟨%d1, H1⟩, ⟨%d2, H2⟩, ⟨%d3, H3⟩⟩
      iapply (run_last c Set.univ (grid1.coords t) hf hl _ _ _ _ _ _ _ _ _ _ (ablk V c 0 t) (ablk V c 1 t) (ablk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hl : ¬isLast (grid1.coords t) := fun h => h1 ((hlast t).mp h)
      rw [Dat.leavesExact_idle (adat V c) 3 t (idle3 t hl) (noflush3 t hl)]
      iintro ⟨⟨⟨HS, Hoth⟩, Hg⟩, Ho, ⟨%d0, H0⟩, ⟨%d1, H1⟩, ⟨%d2, H2⟩, ⟨%d3, H3⟩⟩
      iapply (run_mid c Set.univ (grid1.coords t) hf hl _ _ _ _ _ _ _ _ _ _ (ablk V c 0 t) (ablk V c 1 t) (ablk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem abody_obligation (c : Dev nD) : BodyObligation (adat (F := F) V c) (defs₀ (F := F)) Variants.none () Set.univ := fun t => by
  rw [bigSep_W1, bigSep_W1]
  exact asound_body V c t

/-- What the region is handed is the invariant before the first point. -/
theorem ahin (c : Dev nD) : Pipeline.ΦA spec1 c ⊢ (adat V c).Φ 0 := by
  rw [show (adat V c).Φ 0 = PhiS V c 0 (Nat.zero_le _) from rfl, PhiS_zero V c 0 _ rfl]

/-- After the last point the invariant gives the class invariant back: what the accumulator holds is forgotten. -/
theorem ahout (c : Dev nD) : (adat V c).Φ (Fin.last cfg1.N) ⊢ Pipeline.ΦA spec1 c := by
  rw [show (adat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨HS, Hoth⟩, Hg⟩
  isplitl [HS Hoth]
  · isplitl [HS]; · iexists _; iexact HS
    iexact Hoth
  iexact Hg

end Cert.Kernel.Frm

end
-- ==== Proof.Bits.MainRun.lean ====
/-
  The whole of @main at any float instance: the tile kernel that rebuilds the weight, the host's reshape and narrowing
  of the activations, the tiled product, the host's reshape of the result. Between items the TensorCore holds every
  unscoped buffer at a contents that is a fold from the launch memory: a region replaces its windows' arrays by what
  its write-backs leave, a host stretch applies its operations. Each region is entered with its arrays split out of
  the buffers and left with them put back; the generator register and the (empty) dues ride along. The run ends with
  every unscoped buffer at the fold's last value, from which the arguments read back as launched and the result as the
  reshape of what the second region left.
-/
import proofs.«109634_j3753801417310_1_alg».proof.Proof.Gen.Kernel.Launch
import proofs.«109634_j3753801417310_1_alg».proof.Proof.Gen.Kernel.Skeleton
import proofs.«109634_j3753801417310_1_alg».proof.Proof.Gen.Kernel.Points
import proofs.«109634_j3753801417310_1_alg».proof.Proof.Gen.Kernel.Regions
import proofs.«109634_j3753801417310_1_alg».proof.Proof.Bits.WeightTile
import proofs.«109634_j3753801417310_1_alg».proof.Proof.Bits.AccTile
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch, -/
abbrev W0 : Dev nD → Valuation τ sig (Elt F) := fun c b => m (c, b)
/-- read at the TensorCore's references (what region 0's proof data take). -/
abbrev V0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (wdat (V0 m) c).arrAt w cfg0.N
theorem W1_arr (c : Dev nD) (w : Fin cfg0.W) :
    W1 m c (Proc.devRef .tc (Pipeline.arrRef spec0 w)) = (wdat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (wdat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host's reshape and narrowing of the activations (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (adat (V2 m) c).arrAt w cfg1.N
theorem W3_arr (c : Dev nD) (w : Fin cfg1.W) :
    W3 m c (Proc.devRef .tc (Pipeline.arrRef spec1 w)) = (adat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (adat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the host's reshape of the result: the end. -/
abbrev W4 : Dev nD → Valuation τ sig (Elt F) := fun c => StableHlo.after hostOps2 (W3 m c)

/-! ## No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 0).trans (((wdat (V0 m) c).arrAt_in 0 rfl _).trans (wdat_A (V0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 2).trans (((adat (V2 m) c).arrAt_in 2 rfl _).trans (adat_A (V2 m) c 2))
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 1).trans (((wdat (V0 m) c).arrAt_in 1 rfl _).trans (wdat_A (V0 m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := (W1_arr m c 2).trans (((wdat (V0 m) c).arrAt_in 2 rfl _).trans (wdat_A (V0 m) c 2))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := StableHlo.after_of_writes_sub hostOps1 _ hostOps1_writes (by decide)
    _ = W0 m c (Proc.devRef .tc main_arg5) := (W1_arr m c 3).trans (((wdat (V0 m) c).arrAt_in 3 rfl _).trans (wdat_A (V0 m) c 3))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := StableHlo.after_of_writes_sub hostOps1 _ hostOps1_writes (by decide)
    _ = W0 m c (Proc.devRef .tc main_arg6) := (W1_arr m c 4).trans (((wdat (V0 m) c).arrAt_in 4 rfl _).trans (wdat_A (V0 m) c 4))
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => wdat (V0 m) c
  | ⟨1, _⟩ => fun c => adat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (wbody_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant starts as
    the class invariant and gives it back at the end, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (abody_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := ahout (V2 m) c
    unfold Pipeline.ΦA at h
    show (adat (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of @main on the TensorCores terminates,
    nothing faulting, with every unscoped buffer at the fold's last value. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any float instance: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.Kernel.Frm

end
-- ==== Proof.WeightTile.lean ====
/-
  Region 0 of @main, the tile kernel that rebuilds the merged weight: at grid point (o, i) it reads the 1024×1024
  tile of the base weight and the four low-rank factors' 1024×32 / 32×1024 strips, and stores
  base + (A₁·B₁) ∘ (A₂·B₂) · ½ into the output tile. Every operand is a pipeline window read whole and the one
  store covers the output tile, so what the output's staging buffer holds after the body is one pure function of
  the five input blocks; nothing is carried between points. Stated at any float instance.
-/
import proofs.«109634_j3753801417310_1_alg».proof.Proof.Gen.KernelIdeal.Launch
import proofs.«109634_j3753801417310_1_alg».proof.Proof.Gen.KernelIdeal.Skeleton
import proofs.«109634_j3753801417310_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def wblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/

theorem wbefore0_of {c : Dev nD} (dat : Dat τ (Elt F) Unit ℕ (UR sig nD τ) ℕ cfg0 c) (hA : dat.A 0 = V c (Pipeline.arrRef spec0 0))
    (hafter : ∀ t, dat.after 0 t = wblk V c 0 t) (t : Fin cfg0.N) (d) : dat.before 0 t d = wblk V c 0 t :=
  (dat.before_in_eq_fetched 0 rfl (fun _ => rfl) (fun _ _ _ => rfl) (fun t => by rw [hafter]; unfold Dat.blockOf wblk; rw [hA]; try rfl) t d).trans
    (by unfold Dat.fetched Dat.blockOf wblk; rw [hA]; try rfl)

theorem wbefore1_of {c : Dev nD} (dat : Dat τ (Elt F) Unit ℕ (UR sig nD τ) ℕ cfg0 c) (hA : dat.A 1 = V c (Pipeline.arrRef spec0 1))
    (hafter : ∀ t, dat.after 1 t = wblk V c 1 t) (t : Fin cfg0.N) (d) : dat.before 1 t d = wblk V c 1 t :=
  (dat.before_in_eq_fetched 1 rfl (fun _ => rfl) (fun _ _ _ => rfl) (fun t => by rw [hafter]; unfold Dat.blockOf wblk; rw [hA]; try rfl) t d).trans
    (by unfold Dat.fetched Dat.blockOf wblk; rw [hA]; try rfl)

theorem wbefore2_of {c : Dev nD} (dat : Dat τ (Elt F) Unit ℕ (UR sig nD τ) ℕ cfg0 c) (hA : dat.A 2 = V c (Pipeline.arrRef spec0 2))
    (hafter : ∀ t, dat.after 2 t = wblk V c 2 t) (t : Fin cfg0.N) (d) : dat.before 2 t d = wblk V c 2 t :=
  (dat.before_in_eq_fetched 2 rfl (fun _ => rfl) (fun _ _ _ => rfl) (fun t => by rw [hafter]; unfold Dat.blockOf wblk; rw [hA]; try rfl) t d).trans
    (by unfold Dat.fetched Dat.blockOf wblk; rw [hA]; try rfl)

theorem wbefore3_of {c : Dev nD} (dat : Dat τ (Elt F) Unit ℕ (UR sig nD τ) ℕ cfg0 c) (hA : dat.A 3 = V c (Pipeline.arrRef spec0 3))
    (hafter : ∀ t, dat.after 3 t = wblk V c 3 t) (t : Fin cfg0.N) (d) : dat.before 3 t d = wblk V c 3 t :=
  (dat.before_in_eq_fetched 3 rfl (fun _ => rfl) (fun _ _ _ => rfl) (fun t => by rw [hafter]; unfold Dat.blockOf wblk; rw [hA]; try rfl) t d).trans
    (by unfold Dat.fetched Dat.blockOf wblk; rw [hA]; try rfl)

theorem wbefore4_of {c : Dev nD} (dat : Dat τ (Elt F) Unit ℕ (UR sig nD τ) ℕ cfg0 c) (hA : dat.A 4 = V c (Pipeline.arrRef spec0 4))
    (hafter : ∀ t, dat.after 4 t = wblk V c 4 t) (t : Fin cfg0.N) (d) : dat.before 4 t d = wblk V c 4 t :=
  (dat.before_in_eq_fetched 4 rfl (fun _ => rfl) (fun _ _ _ => rfl) (fun t => by rw [hafter]; unfold Dat.blockOf wblk; rw [hA]; try rfl) t d).trans
    (by unfold Dat.fetched Dat.blockOf wblk; rw [hA]; try rfl)

/-! ## The body's one store -/

/-- The whole tile, and the whole strips, as rectangles. -/
abbrev tileRect : Rect S1024x1024 := Rect.unit (s := S1024x1024) ![0, 0] S1024x1024.size inb_S1024x1024_S1024x1024_0_0
abbrev colRect : Rect S1024x32 := Rect.unit (s := S1024x32) ![0, 0] S1024x32.size inb_S1024x32_S1024x32_0_0
abbrev rowRect : Rect S32x1024 := Rect.unit (s := S32x1024) ![0, 0] S32x1024.size inb_S32x1024_S32x1024_0_0

/-- What the body leaves in the output tile's staging buffer: its one store, over the five input blocks. -/
def wOut (w0 : Vec F S1024x1024 .f32) (a1 : Vec F S1024x32 .f32) (b1 : Vec F S32x1024 .f32) (a2 : Vec F S1024x32 .f32) (b2 : Vec F S32x1024 .f32) :
    Vec F S1024x1024 .bf16 :=
  View.canon [⟨tileRect, k0_pay1 (View.ld a1 colRect) (View.ld b1 rowRect) (View.ld a2 colRect) (View.ld b2 rowRect) (View.ld w0 tileRect)⟩]

/-- The one store covers the tile. -/
theorem wOut_cover (p0 : Vec F S1024x1024 .bf16) (y : S1024x1024.Idx) :
    ∃ pc ∈ ([⟨tileRect, p0⟩] : List (View.Piece (Elt F) S1024x1024 .bf16)), y ∈ pc.1.set :=
  View.cover_of_tiled [⟨tileRect, p0⟩] S1024x1024.size (by rfl) y

set_option maxHeartbeats 1000000 in
/-- The tile kernel on whole staging memrefs, the inputs' at known contents and the output's at anything, runs to the
    continuation with the inputs untouched and the output tile at `wOut` of them. -/
theorem weight_kernel_run (c : Dev nD) (E : Set ℕ) (i : grid0.Coords)
    (arg2 : Memref sig .tc .vmem S1024x1024 .f32) (harg2 : arg2.IsWhole) (arg3 : Memref sig .tc .vmem S1024x32 .f32) (harg3 : arg3.IsWhole)
    (arg4 : Memref sig .tc .vmem S32x1024 .f32) (harg4 : arg4.IsWhole) (arg5 : Memref sig .tc .vmem S1024x32 .f32) (harg5 : arg5.IsWhole)
    (arg6 : Memref sig .tc .vmem S32x1024 .f32) (harg6 : arg6.IsWhole) (arg7 : Memref sig .tc .vmem S1024x1024 .bf16) (harg7 : arg7.IsWhole)
    (w0 : Vec F S1024x1024 .f32) (a1 : Vec F S1024x32 .f32) (b1 : Vec F S32x1024 .f32) (a2 : Vec F S1024x32 .f32) (b2 : Vec F S32x1024 .f32)
    (K : PUnit → sProp 𝕄) :
    iprop(owns (c : Thread nD τ) arg2 fullShare w0 ∗ owns (c : Thread nD τ) arg3 fullShare a1 ∗ owns (c : Thread nD τ) arg4 fullShare b1
        ∗ owns (c : Thread nD τ) arg5 fullShare a2 ∗ owns (c : Thread nD τ) arg6 fullShare b2 ∗ (∃ d, owns (c : Thread nD τ) arg7 fullShare d)
        ∗ (iprop(owns (c : Thread nD τ) arg2 fullShare w0 ∗ owns (c : Thread nD τ) arg3 fullShare a1 ∗ owns (c : Thread nD τ) arg4 fullShare b1
            ∗ owns (c : Thread nD τ) arg5 fullShare a2 ∗ owns (c : Thread nD τ) arg6 fullShare b2
            ∗ owns (c : Thread nD τ) arg7 fullShare (wOut w0 a1 b1 a2 b2)) -∗ K ⟨⟩))
      ⊢ wp frame (wpE (defs₀ (F := F)) Variants.none c none) E (cc0__weight_kernel i arg2 harg2 arg3 harg3 arg4 harg4 arg5 harg5 arg6 harg6 arg7 harg7) K := by
  simp only [cc0__weight_kernel_eq_skeleton]; unfold cc0__weight_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (wOut_cover _)

/-! ## The pipeline's proof data -/

/-- The proof data of pipeline 0 on core `c`: the arrays as the region finds them; after the body at point `t` each
    input's buffer at its block and the output's at `wOut` of the input blocks; the invariant is the scoped rest and the
    generator register, untouched; nothing owed; full shares. -/
def wdat (c : Dev nD) : Dat τ (Elt F) Unit ℕ (UR sig nD τ) ℕ cfg0 c where
  A w := V c (Pipeline.arrRef spec0 w)
  after w t := match w with
    | ⟨0, _⟩ => wblk V c 0 t
    | ⟨1, _⟩ => wblk V c 1 t
    | ⟨2, _⟩ => wblk V c 2 t
    | ⟨3, _⟩ => wblk V c 3 t
    | ⟨4, _⟩ => wblk V c 4 t
    | ⟨5, _⟩ => wOut (wblk V c 0 t) (wblk V c 1 t) (wblk V c 2 t) (wblk V c 3 t) (wblk V c 4 t)
  Φ _ := Pipeline.ΦA spec0 c
  q _ := fullShare
  owed _ := 0

theorem wdat_A (c : Dev nD) (w : Fin cfg0.W) : (wdat V c).A w = V c (Pipeline.arrRef spec0 w) := by
  dsimp only [wdat]

theorem wafter0 (c : Dev nD) (t : Fin cfg0.N) : (wdat V c).after 0 t = wblk V c 0 t := by dsimp only [wdat]
theorem wafter1 (c : Dev nD) (t : Fin cfg0.N) : (wdat V c).after 1 t = wblk V c 1 t := by dsimp only [wdat]
theorem wafter2 (c : Dev nD) (t : Fin cfg0.N) : (wdat V c).after 2 t = wblk V c 2 t := by dsimp only [wdat]
theorem wafter3 (c : Dev nD) (t : Fin cfg0.N) : (wdat V c).after 3 t = wblk V c 3 t := by dsimp only [wdat]
theorem wafter4 (c : Dev nD) (t : Fin cfg0.N) : (wdat V c).after 4 t = wblk V c 4 t := by dsimp only [wdat]
theorem wafter5 (c : Dev nD) (t : Fin cfg0.N) :
    (wdat V c).after 5 t = wOut (wblk V c 0 t) (wblk V c 1 t) (wblk V c 2 t) (wblk V c 3 t) (wblk V c 4 t) := by dsimp only [wdat]

theorem wbefore0 (c : Dev nD) (t : Fin cfg0.N) (d) : (wdat V c).before 0 t d = wblk V c 0 t :=
  wbefore0_of V (wdat V c) (wdat_A V c 0) (wafter0 V c) t d
theorem wbefore1 (c : Dev nD) (t : Fin cfg0.N) (d) : (wdat V c).before 1 t d = wblk V c 1 t :=
  wbefore1_of V (wdat V c) (wdat_A V c 1) (wafter1 V c) t d
theorem wbefore2 (c : Dev nD) (t : Fin cfg0.N) (d) : (wdat V c).before 2 t d = wblk V c 2 t :=
  wbefore2_of V (wdat V c) (wdat_A V c 2) (wafter2 V c) t d
theorem wbefore3 (c : Dev nD) (t : Fin cfg0.N) (d) : (wdat V c).before 3 t d = wblk V c 3 t :=
  wbefore3_of V (wdat V c) (wdat_A V c 3) (wafter3 V c) t d
theorem wbefore4 (c : Dev nD) (t : Fin cfg0.N) (d) : (wdat V c).before 4 t d = wblk V c 4 t :=
  wbefore4_of V (wdat V c) (wdat_A V c 4) (wafter4 V c) t d

/-! ## The body obligation -/

/-- What the body is called with at point `t`, the windows one by one, -/
def wbodyPre (c : Dev nD) (t : Fin cfg0.N) : sProp 𝕄 :=
  iprop((wdat V c).Φ t.castSucc ∗ (wdat V c).owesAt () t.castSucc
    ∗ (∃ d, owns (c : Thread nD τ) (st0_0 t) fullShare ((wdat V c).before 0 t d))
    ∗ (∃ d, owns (c : Thread nD τ) (st0_1 t) fullShare ((wdat V c).before 1 t d))
    ∗ (∃ d, owns (c : Thread nD τ) (st0_2 t) fullShare ((wdat V c).before 2 t d))
    ∗ (∃ d, owns (c : Thread nD τ) (st0_3 t) fullShare ((wdat V c).before 3 t d))
    ∗ (∃ d, owns (c : Thread nD τ) (st0_4 t) fullShare ((wdat V c).before 4 t d))
    ∗ (∃ d, owns (c : Thread nD τ) (st0_5 t) fullShare ((wdat V c).before 5 t d)))

/-- and what it returns. -/
def wbodyPost (c : Dev nD) (t : Fin cfg0.N) : sProp 𝕄 :=
  iprop((wdat V c).Φ t.succ ∗ (wdat V c).owesAt () t.succ
    ∗ owns (c : Thread nD τ) (st0_0 t) fullShare ((wdat V c).after 0 t)
    ∗ owns (c : Thread nD τ) (st0_1 t) fullShare ((wdat V c).after 1 t)
    ∗ owns (c : Thread nD τ) (st0_2 t) fullShare ((wdat V c).after 2 t)
    ∗ owns (c : Thread nD τ) (st0_3 t) fullShare ((wdat V c).after 3 t)
    ∗ owns (c : Thread nD τ) (st0_4 t) fullShare ((wdat V c).after 4 t)
    ∗ owns (c : Thread nD τ) (st0_5 t) fullShare ((wdat V c).after 5 t))

/-- The body at any point: the inputs' memrefs hold their blocks, so the kernel's run applies; the invariant and the
    core's dues pass through unread. -/
theorem wsound_body (c : Dev nD) (t : Fin cfg0.N) :
    wbodyPre V c t ⊢ wp frame (wpE (defs₀ (F := F)) Variants.none c none) Set.univ (bodyAt0 t) (fun _ => wbodyPost V c t) := by
  unfold wbodyPre wbodyPost bodyAt0
  simp only [wbefore0, wbefore1, wbefore2, wbefore3, wbefore4]
  rw [show (wdat V c).Φ t.succ = (wdat V c).Φ t.castSucc from rfl,
    show (wdat V c).owesAt () t.succ = (wdat V c).owesAt () t.castSucc from rfl,
    wafter0, wafter1, wafter2, wafter3, wafter4, wafter5]
  iintro ⟨HΦ, Ho, ⟨%d0, H0⟩, ⟨%d1, H1⟩, ⟨%d2, H2⟩, ⟨%d3, H3⟩, ⟨%d4, H4⟩, ⟨%d5, H5⟩⟩
  iapply (weight_kernel_run c Set.univ _ _ _ _ _ _ _ _ _ _ _ _ _ (wblk V c 0 t) (wblk V c 1 t) (wblk V c 2 t) (wblk V c 3 t) (wblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem wbody_obligation (c : Dev nD) : BodyObligation (wdat (F := F) V c) (defs₀ (F := F)) Variants.none () Set.univ := fun t => by
  rw [bigSep_W0, bigSep_W0]
  exact wsound_body V c t

end Cert.KernelIdeal.Frm

end
-- ==== Proof.AccTile.lean ====
/-
  Region 1 of @main, the tiled product with the bias: the grid runs over (row tile, output tile, k-step); at each point
  the kernel adds the product of a 2048×1024 tile of the activations with a 1024×1024 tile of the merged weight
  (contracted along the weight's second axis) into a 2048×1024 scratch accumulator, which it zeroes first on the first
  k-step; on the last k-step it stores accumulator + bias row into the output tile. The accumulator lives in a scratch
  buffer that the pipeline does not stage, so the region's invariant has to say what it holds between points: after
  point n, the fold `accAt n` of the k-steps since the last zeroing. The output tile is stored, and written back, only
  on the last k-step; elsewhere its staging buffer is handed back untouched. Stated at any float instance.
-/
import proofs.«109634_j3753801417310_1_alg».proof.Proof.Gen.KernelIdeal.Launch
import proofs.«109634_j3753801417310_1_alg».proof.Proof.Gen.KernelIdeal.Skeleton
import proofs.«109634_j3753801417310_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each input's staging buffer holds its block at every point, fetched there or not -/

theorem abefore0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

theorem abefore1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

theorem abefore2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

/-! ## The two branches, decided over the grid -/

abbrev isFirst (i : grid1.Coords) : Prop := (Scalar.cmpi .ne (Scalar.extui (Scalar.cmpi .eq (BitVec.ofNat 32 (i 2).val) 0#32)) 0#32) = 1#1
abbrev isLast (i : grid1.Coords) : Prop := k1_cond2 i = 1#1

/-- The zeroing branch is taken exactly on the first k-step, -/
theorem hfirst : ∀ t : Fin cfg1.N, isFirst (grid1.coords t) ↔ t.val % 4 = 0 :=
  (by decide +kernel : ∀ t : Fin grid1.N, isFirst (grid1.coords t) ↔ t.val % 4 = 0)
/-- the storing branch exactly on the last. -/
theorem hlast : ∀ t : Fin cfg1.N, isLast (grid1.coords t) ↔ t.val % 4 = 3 :=
  (by decide +kernel : ∀ t : Fin grid1.N, isLast (grid1.coords t) ↔ t.val % 4 = 3)

/-- The inputs are never idle; the output tile is idle, and not written back, off the last k-step. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬isLast (grid1.coords t) → cfg1.idle 3 (grid1.coords t) = true := by decide +kernel
theorem noflush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The body, case by case -/

theorem zero2 : (![0, 0] : Fin S2048x1024.rank → Nat) = fun _ => 0 := by funext a; fin_cases a <;> rfl
theorem zero2w : (![0, 0] : Fin S1024x1024.rank → Nat) = fun _ => 0 := by funext a; fin_cases a <;> rfl
theorem zero1 : (![0] : Fin S1024.rank → Nat) = fun _ => 0 := by funext a; fin_cases a; rfl

/-- A whole-buffer store heading a list of stores covers the buffer. -/
theorem head_covers {e : EltTy} (P : S2048x1024.Idx → Elt F e) (L : List (View.Piece (Elt F) S2048x1024 e)) (y : S2048x1024.Idx) :
    ∃ p ∈ ((⟨Rect.unit ![0, 0] S2048x1024.size inb_S2048x1024_S2048x1024_0_0, P⟩ : View.Piece (Elt F) S2048x1024 e) :: L), y ∈ p.1.set :=
  ⟨_, List.mem_cons_self, View.mem_set_unit_zero zero2 inb_S2048x1024_S2048x1024_0_0 y⟩

/-- The accumulator after the first k-step: zeroed, then the tile product added. -/
def accFirst (x : Vec F S2048x1024 .bf16) (w : Vec F S1024x1024 .bf16) : Vec F S2048x1024 .f32 := k1_pay2 (k1_pay1 (F := F)) x w
/-- The accumulator after a later k-step: the tile product added to what the step before left. -/
def accNext (s : Vec F S2048x1024 .f32) (x : Vec F S2048x1024 .bf16) (w : Vec F S1024x1024 .bf16) : Vec F S2048x1024 .f32 := k1_pay2 s x w
/-- The output tile stored on the last k-step: the finished accumulator plus the bias row. -/
def outLast (s : Vec F S2048x1024 .f32) (x : Vec F S2048x1024 .bf16) (w : Vec F S1024x1024 .bf16) (b : Vec F S1024 .f32) : Vec F S2048x1024 .f32 :=
  k1_pay3 (k1_pay2 s x w) b

set_option maxHeartbeats 1000000 in
/-- First k-step (and not the last): the scratch, at anything, ends at `accFirst`; the output tile is not stored. -/
theorem run_first (c : Dev nD) (E : Set ℕ) (i : grid1.Coords) (hc0 : isFirst i) (hc1 : ¬ isLast i)
    (arg3 : Memref sig .tc .vmem S2048x1024 .bf16) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S2048x1024 .f32) (harg6 : arg6.IsWhole)
    (arg7 : Memref sig .tc .vmem S2048x1024 .f32) (harg7 : arg7.IsWhole)
    (x : Vec F S2048x1024 .bf16) (w : Vec F S1024x1024 .bf16) (b : Vec F S1024 .f32) (y : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare y ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare y ∗ owns (c : Thread nD τ) arg7 fullShare (accFirst x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (head_covers _ _), View.canon_cons_unit_zero (S := S2048x1024) zero2]
  sl_unfold_words
  unfold accFirst
  simp only [View.readAt_eq_ld, View.ld_unit_zero (S := S2048x1024) zero2, View.ld_unit_zero (S := S1024x1024) zero2w, View.readCov_unit_zero (S := S2048x1024) _ zero2]

set_option maxHeartbeats 1000000 in
/-- A middle k-step: the scratch goes from `s` to `accNext s`; the output tile is not stored. -/
theorem run_mid (c : Dev nD) (E : Set ℕ) (i : grid1.Coords) (hc0 : ¬ isFirst i) (hc1 : ¬ isLast i)
    (arg3 : Memref sig .tc .vmem S2048x1024 .bf16) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S2048x1024 .f32) (harg6 : arg6.IsWhole)
    (arg7 : Memref sig .tc .vmem S2048x1024 .f32) (harg7 : arg7.IsWhole)
    (x : Vec F S2048x1024 .bf16) (w : Vec F S1024x1024 .bf16) (b : Vec F S1024 .f32) (s : Vec F S2048x1024 .f32) (y : Vec F S2048x1024 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare y ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare y ∗ owns (c : Thread nD τ) arg7 fullShare (accNext s x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  iexists _; isplitr
  swap; · iexact H4
  ipureintro
  rw [View.read_writes_eq_canon _ _ _ (head_covers _ _), View.canon_cons_unit_zero (S := S2048x1024) zero2]
  unfold accNext
  simp only [View.readAt_eq_ld, View.ld_unit_zero (S := S2048x1024) zero2, View.ld_unit_zero (S := S1024x1024) zero2w]

set_option maxHeartbeats 1000000 in
/-- The last k-step: the scratch goes from `s` to `accNext s`, and the output tile is stored at `outLast s`. -/
theorem run_last (c : Dev nD) (E : Set ℕ) (i : grid1.Coords) (hc0 : ¬ isFirst i) (hc1 : isLast i)
    (arg3 : Memref sig .tc .vmem S2048x1024 .bf16) (harg3 : arg3.IsWhole) (arg4 : Memref sig .tc .vmem S1024x1024 .bf16) (harg4 : arg4.IsWhole)
    (arg5 : Memref sig .tc .vmem S1024 .f32) (harg5 : arg5.IsWhole) (arg6 : Memref sig .tc .vmem S2048x1024 .f32) (harg6 : arg6.IsWhole)
    (arg7 : Memref sig .tc .vmem S2048x1024 .f32) (harg7 : arg7.IsWhole)
    (x : Vec F S2048x1024 .bf16) (w : Vec F S1024x1024 .bf16) (b : Vec F S1024 .f32) (s : Vec F S2048x1024 .f32)
    (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (outLast s x w b) ∗ owns (c : Thread nD τ) arg7 fullShare (accNext s x w)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (head_covers _ _), View.canon_cons_unit_zero (S := S2048x1024) zero2]
    sl_unfold_words
    unfold outLast
    simp only [View.readAt_eq_ld, View.ld_unit_zero (S := S2048x1024) zero2, View.ld_unit_zero (S := S1024x1024) zero2w, View.ld_unit_zero (S := S1024) zero1, View.readCov_unit_zero (S := S2048x1024) _ zero2]
  iexists _; isplitr
  swap; · iexact H4
  ipureintro
  sl_unfold_words
  rw [View.read_writes_eq_canon _ _ _ (head_covers _ _), View.canon_cons_unit_zero (S := S2048x1024) zero2]
  unfold accNext
  simp only [View.readAt_eq_ld, View.ld_unit_zero (S := S2048x1024) zero2, View.ld_unit_zero (S := S1024x1024) zero2w]

/-! ## What the accumulator holds after each point -/

/-- The scratch accumulator after the body at position `n`: on a first k-step the tile product over zero, otherwise
    the tile product added to what position `n - 1` left. -/
def accAt (c : Dev nD) : (n : ℕ) → n < cfg1.N → Vec F S2048x1024 .f32
  | 0, hn => accFirst (ablk V c 0 ⟨0, hn⟩) (ablk V c 1 ⟨0, hn⟩)
  | n + 1, hn =>
    if (n + 1) % 4 = 0 then accFirst (ablk V c 0 ⟨n + 1, hn⟩) (ablk V c 1 ⟨n + 1, hn⟩)
    else accNext (accAt c n (Nat.lt_of_succ_lt hn)) (ablk V c 0 ⟨n + 1, hn⟩) (ablk V c 1 ⟨n + 1, hn⟩)

theorem accAt_first (c : Dev nD) (t : Fin cfg1.N) (h : t.val % 4 = 0) :
    accAt V c t.val t.isLt = accFirst (ablk V c 0 t) (ablk V c 1 t) := by
  obtain ⟨n, hn⟩ := t
  cases n with
  | zero => rfl
  | succ n => exact if_pos h

theorem accAt_next (c : Dev nD) (t : Fin cfg1.N) (h : ¬t.val % 4 = 0) :
    accAt V c t.val t.isLt = accNext (accAt V c (t.val - 1) (Nat.lt_of_le_of_lt (Nat.sub_le _ _) t.isLt)) (ablk V c 0 t) (ablk V c 1 t) := by
  obtain ⟨n, hn⟩ := t
  cases n with
  | zero => exact absurd (Nat.zero_mod _) h
  | succ n => exact if_neg h

/-- The output tile's staging buffer after the body at `t`, where the body stores it (the last k-step): what the point
    before left in the accumulator, this step's product added, plus the bias row. Off the last k-step the buffer is
    idle and this value is consulted by nothing. -/
def outAt (c : Dev nD) (t : Fin cfg1.N) : Vec F S2048x1024 .f32 :=
  outLast (accAt V c (t.val - 1) (Nat.lt_of_le_of_lt (Nat.sub_le _ _) t.isLt)) (ablk V c 0 t) (ablk V c 1 t) (ablk V c 2 t)

/-! ## The region invariant: the accumulator between points -/

/-- The scratch accumulator as a memref. -/
abbrev accM : Memref sig .tc .vmem S2048x1024 .f32 := Memref.whole cc1_scratch0

/-- The core's scoped buffers that are neither a staging buffer of this call nor the accumulator, unopened. -/
abbrev otherScoped (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA1_eq (c : Dev nD) :
    (Pipeline.ΦA spec1 c : sProp 𝕄)
      = iprop(iprop((∃ d, owns (c : Thread nD τ) accM fullShare d) ∗ otherScoped c) ∗ (∃ r, prngReg c r)) := by
  unfold Pipeline.ΦA
  rw [Pipeline.scopedRest_split_of_list spec1 c [cc1_scratch0] (by decide) (by decide)]
  simp only [accM, owns_whole, bigSepL]
  rfl

/-- Before position `n`: at the region's entry the class invariant (the accumulator at anything); afterwards the
    accumulator at what position `n - 1` left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) accM fullShare (accAt V c n hn) ∗ otherScoped c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) accM fullShare (accAt V c n hn) ∗ otherScoped c) ∗ (∃ r, prngReg c r)) := rfl

theorem PhiS_pos (c : Dev nD) (n : ℕ) (h : n ≤ cfg1.N) (hz : n ≠ 0) :
    PhiS V c n h = iprop(iprop(owns (c : Thread nD τ) accM fullShare (accAt V c (n - 1) (by omega)) ∗ otherScoped c) ∗ (∃ r, prngReg c r)) := by
  cases n with
  | zero => exact absurd rfl hz
  | succ n => rfl

/-! ## The pipeline's proof data -/

/-- The proof data of pipeline 1 on core `c`: the arrays as the region finds them; after the body each input's buffer
    at its block and the output tile's at `outAt`; the invariant `PhiS`; nothing owed; full shares. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => outAt V c t
  Φ t := PhiS V c t.val (Nat.le_of_lt_succ t.isLt)
  q _ := fullShare
  owed _ := 0

theorem adat_A (c : Dev nD) (w : Fin cfg1.W) : (adat V c).A w = V c (Pipeline.arrRef spec1 w) := by
  dsimp only [adat]

theorem PhiS_castSucc (c : Dev nD) (t : Fin cfg1.N) :
    (adat V c).Φ t.castSucc = PhiS V c t.val (Nat.le_of_lt t.isLt) := by
  dsimp only [adat]; simp only [Fin.coe_castSucc]

theorem aafter0 (c : Dev nD) (t : Fin cfg1.N) : (adat V c).after 0 t = ablk V c 0 t := by dsimp only [adat]
theorem aafter1 (c : Dev nD) (t : Fin cfg1.N) : (adat V c).after 1 t = ablk V c 1 t := by dsimp only [adat]
theorem aafter2 (c : Dev nD) (t : Fin cfg1.N) : (adat V c).after 2 t = ablk V c 2 t := by dsimp only [adat]
theorem aafter3 (c : Dev nD) (t : Fin cfg1.N) : (adat V c).after 3 t = outAt V c t := by dsimp only [adat]

theorem abefore0 (c : Dev nD) (t : Fin cfg1.N) (d) : (adat V c).before 0 t d = ablk V c 0 t :=
  abefore0_of V (adat V c) (adat_A V c 0) (aafter0 V c) t d
theorem abefore1 (c : Dev nD) (t : Fin cfg1.N) (d) : (adat V c).before 1 t d = ablk V c 1 t :=
  abefore1_of V (adat V c) (adat_A V c 1) (aafter1 V c) t d
theorem abefore2 (c : Dev nD) (t : Fin cfg1.N) (d) : (adat V c).before 2 t d = ablk V c 2 t :=
  abefore2_of V (adat V c) (adat_A V c 2) (aafter2 V c) t d

theorem aleaves0 (c : Dev nD) (t : Fin cfg1.N) :
    (adat V c).leavesExact 0 t = owns (c : Thread nD τ) (st1_0 t) fullShare (ablk V c 0 t) := by
  unfold Dat.leavesExact; rw [live0 t, aafter0]
theorem aleaves1 (c : Dev nD) (t : Fin cfg1.N) :
    (adat V c).leavesExact 1 t = owns (c : Thread nD τ) (st1_1 t) fullShare (ablk V c 1 t) := by
  unfold Dat.leavesExact; rw [live1 t, aafter1]
theorem aleaves2 (c : Dev nD) (t : Fin cfg1.N) :
    (adat V c).leavesExact 2 t = owns (c : Thread nD τ) (st1_2 t) fullShare (ablk V c 2 t) := by
  unfold Dat.leavesExact; rw [live2 t, aafter2]
theorem aleaves3_last (c : Dev nD) (t : Fin cfg1.N) (h : isLast (grid1.coords t)) :
    (adat V c).leavesExact 3 t = owns (c : Thread nD τ) (st1_3 t) fullShare (outAt V c t) := by
  unfold Dat.leavesExact; rw [live3 t h, aafter3]

/-! ## The body obligation -/

/-- What the body is called with at point `t`, the windows one by one, -/
def abodyPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d)))

/-- and what it returns. -/
def abodyPost (c : Dev nD) (t : Fin cfg1.N) : sProp 𝕄 :=
  iprop((adat V c).Φ t.succ ∗ (adat V c).owesAt () t.succ
    ∗ (adat V c).leavesExact 0 t
    ∗ (adat V c).leavesExact 1 t
    ∗ (adat V c).leavesExact 2 t
    ∗ (adat V c).leavesExact 3 t)

set_option maxHeartbeats 4800000 in
/-- The body at any point. The inputs' memrefs hold their blocks; the k-step's position in its group of four says which
    case runs; the invariant hands over the accumulator at what the point before left (at anything at the region's
    entry) and takes it back at this point's fold; off the last k-step the output tile's buffer comes back as it was. -/
theorem asound_body (c : Dev nD) (t : Fin cfg1.N) :
    abodyPre V c t ⊢ wp frame (wpE (defs₀ (F := F)) Variants.none c none) Set.univ (bodyAt1 t) (fun _ => abodyPost V c t) := by
  unfold abodyPre abodyPost bodyAt1
  simp only [abefore0, abefore1, abefore2]
  rw [show (adat V c).owesAt () t.succ = (adat V c).owesAt () t.castSucc from rfl]
  rw [show (adat V c).Φ t.succ = PhiS V c (t.val + 1) t.isLt from rfl, PhiS_succ]
  rw [aleaves0, aleaves1, aleaves2]
  have hN : t.val < 128 := lt_of_lt_of_eq t.isLt (show cfg1.N = 128 from N_1)
  by_cases h0 : t.val % 4 = 0
  · have hf : isFirst (grid1.coords t) := (hfirst t).mpr h0
    have hl : ¬isLast (grid1.coords t) := fun h => by have := (hlast t).mp h; omega
    rw [Dat.leavesExact_idle (adat V c) 3 t (idle3 t hl) (noflush3 t hl), accAt_first V c t h0]
    by_cases hz : t.val = 0
    · rw [PhiS_castSucc V c t, PhiS_zero V c _ _ hz, PhiA1_eq]
      iintro ⟨⟨⟨HS, Hoth⟩, Hg⟩, Ho, ⟨%d0, H0⟩, ⟨%d1, H1⟩, ⟨%d2, H2⟩, ⟨%d3, H3⟩⟩
      iapply (run_first c Set.univ (grid1.coords t) hf hl _ _ _ _ _ _ _ _ _ _ (ablk V c 0 t) (ablk V c 1 t) (ablk V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_first c Set.univ (grid1.coords t) hf hl _ _ _ _ _ _ _ _ _ _ (ablk V c 0 t) (ablk V c 1 t) (ablk V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have hf : ¬isFirst (grid1.coords t) := fun h => h0 ((hfirst t).mp h)
    have hz : t.val ≠ 0 := fun h => h0 (by rw [h])
    rw [accAt_next V c t h0, PhiS_castSucc V c t, PhiS_pos V c _ _ hz]
    by_cases h1 : t.val % 4 = 3
    · have hl : isLast (grid1.coords t) := (hlast t).mpr h1
      rw [aleaves3_last V c t hl]
      unfold outAt
      iintro ⟨⟨⟨HS, Hoth⟩, Hg⟩, Ho, ⟨%d0, H0⟩, ⟨%d1, H1⟩, ⟨%d2, H2⟩, ⟨%d3, H3⟩⟩
      iapply (run_last c Set.univ (grid1.coords t) hf hl _ _ _ _ _ _ _ _ _ _ (ablk V c 0 t) (ablk V c 1 t) (ablk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hl : ¬isLast (grid1.coords t) := fun h => h1 ((hlast t).mp h)
      rw [Dat.leavesExact_idle (adat V c) 3 t (idle3 t hl) (noflush3 t hl)]
      iintro ⟨⟨⟨HS, Hoth⟩, Hg⟩, Ho, ⟨%d0, H0⟩, ⟨%d1, H1⟩, ⟨%d2, H2⟩, ⟨%d3, H3⟩⟩
      iapply (run_mid c Set.univ (grid1.coords t) hf hl _ _ _ _ _ _ _ _ _ _ (ablk V c 0 t) (ablk V c 1 t) (ablk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem abody_obligation (c : Dev nD) : BodyObligation (adat (F := F) V c) (defs₀ (F := F)) Variants.none () Set.univ := fun t => by
  rw [bigSep_W1, bigSep_W1]
  exact asound_body V c t

/-- What the region is handed is the invariant before the first point. -/
theorem ahin (c : Dev nD) : Pipeline.ΦA spec1 c ⊢ (adat V c).Φ 0 := by
  rw [show (adat V c).Φ 0 = PhiS V c 0 (Nat.zero_le _) from rfl, PhiS_zero V c 0 _ rfl]

/-- After the last point the invariant gives the class invariant back: what the accumulator holds is forgotten. -/
theorem ahout (c : Dev nD) : (adat V c).Φ (Fin.last cfg1.N) ⊢ Pipeline.ΦA spec1 c := by
  rw [show (adat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨HS, Hoth⟩, Hg⟩
  isplitl [HS Hoth]
  · isplitl [HS]; · iexists _; iexact HS
    iexact Hoth
  iexact Hg

end Cert.KernelIdeal.Frm

end
-- ==== Proof.MainRun.lean ====
/-
  The whole of @main at any float instance: the tile kernel that rebuilds the weight, the host's reshape and narrowing
  of the activations, the tiled product, the host's reshape of the result. Between items the TensorCore holds every
  unscoped buffer at a contents that is a fold from the launch memory: a region replaces its windows' arrays by what
  its write-backs leave, a host stretch applies its operations. Each region is entered with its arrays split out of
  the buffers and left with them put back; the generator register and the (empty) dues ride along. The run ends with
  every unscoped buffer at the fold's last value, from which the arguments read back as launched and the result as the
  reshape of what the second region left.
-/
import proofs.«109634_j3753801417310_1_alg».proof.Proof.Gen.KernelIdeal.Launch
import proofs.«109634_j3753801417310_1_alg».proof.Proof.Gen.KernelIdeal.Skeleton
import proofs.«109634_j3753801417310_1_alg».proof.Proof.Gen.KernelIdeal.Points
import proofs.«109634_j3753801417310_1_alg».proof.Proof.Gen.KernelIdeal.Regions
import proofs.«109634_j3753801417310_1_alg».proof.Proof.WeightTile
import proofs.«109634_j3753801417310_1_alg».proof.Proof.AccTile
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch, -/
abbrev W0 : Dev nD → Valuation τ sig (Elt F) := fun c b => m (c, b)
/-- read at the TensorCore's references (what region 0's proof data take). -/
abbrev V0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (wdat (V0 m) c).arrAt w cfg0.N
theorem W1_arr (c : Dev nD) (w : Fin cfg0.W) :
    W1 m c (Proc.devRef .tc (Pipeline.arrRef spec0 w)) = (wdat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (wdat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host's reshape and narrowing of the activations (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (adat (V2 m) c).arrAt w cfg1.N
theorem W3_arr (c : Dev nD) (w : Fin cfg1.W) :
    W3 m c (Proc.devRef .tc (Pipeline.arrRef spec1 w)) = (adat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (adat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the host's reshape of the result: the end. -/
abbrev W4 : Dev nD → Valuation τ sig (Elt F) := fun c => StableHlo.after hostOps2 (W3 m c)

/-! ## No item writes an argument -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 0).trans (((wdat (V0 m) c).arrAt_in 0 rfl _).trans (wdat_A (V0 m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := (W3_arr m c 2).trans (((adat (V2 m) c).arrAt_in 2 rfl _).trans (adat_A (V2 m) c 2))
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 1).trans (((wdat (V0 m) c).arrAt_in 1 rfl _).trans (wdat_A (V0 m) c 1))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := (W1_arr m c 2).trans (((wdat (V0 m) c).arrAt_in 2 rfl _).trans (wdat_A (V0 m) c 2))
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide)
    _ = W2 m c (Proc.devRef .tc main_arg5) := W3_of_ne m c main_arg5 (by decide)
    _ = W1 m c (Proc.devRef .tc main_arg5) := StableHlo.after_of_writes_sub hostOps1 _ hostOps1_writes (by decide)
    _ = W0 m c (Proc.devRef .tc main_arg5) := (W1_arr m c 3).trans (((wdat (V0 m) c).arrAt_in 3 rfl _).trans (wdat_A (V0 m) c 3))
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide)
    _ = W2 m c (Proc.devRef .tc main_arg6) := W3_of_ne m c main_arg6 (by decide)
    _ = W1 m c (Proc.devRef .tc main_arg6) := StableHlo.after_of_writes_sub hostOps1 _ hostOps1_writes (by decide)
    _ = W0 m c (Proc.devRef .tc main_arg6) := (W1_arr m c 4).trans (((wdat (V0 m) c).arrAt_in 4 rfl _).trans (wdat_A (V0 m) c 4))
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => wdat (V0 m) c
  | ⟨1, _⟩ => fun c => adat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (wbody_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant starts as
    the class invariant and gives it back at the end, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (abody_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := ahout (V2 m) c
    unfold Pipeline.ΦA at h
    show (adat (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of @main on the TensorCores terminates,
    nothing faulting, with every unscoped buffer at the fold's last value. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME, at any float instance: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Frm

end
-- ==== Proof.Spec.lean ====
/-
  The mathematics both programs compute, on the extended reals. With W₀ the base weight, A₁ B₁ A₂ B₂ the low-rank
  factors (rank 32), x the activations and b the bias:

      W[o, i]   = W₀[o, i] + (Σ_r A₁[o, r] · B₁[r, i]) · (Σ_r A₂[o, r] · B₂[r, i]) · ½          (the merged weight)
      y[m, o]   = Σ_k x[m, k] · W[o, k] + b[o]                                                 (a linear layer)

  stated once over the flattened activations (16384 rows) and once over the rank-3 ones (4 × 4096 rows). ½ is kept as
  the float word both programs print; nothing here evaluates it.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- ½, as the word both programs print. -/
abbrev half : EReal := Ideal.ofBits .f32 0x3F000000#32

/-- One entry of the merged weight. -/
def mergedEntry (w0 : (⟨2, ![4096, 4096]⟩ : Shape).Idx → EReal)
    (a1 : (⟨2, ![4096, 32]⟩ : Shape).Idx → EReal) (b1 : (⟨2, ![32, 4096]⟩ : Shape).Idx → EReal)
    (a2 : (⟨2, ![4096, 32]⟩ : Shape).Idx → EReal) (b2 : (⟨2, ![32, 4096]⟩ : Shape).Idx → EReal)
    (o i : Fin 4096) : EReal :=
  w0 (ix2 o i) + (∑ r : Fin 32, a1 (ix2 o r) * b1 (ix2 r i)) * (∑ r : Fin 32, a2 (ix2 o r) * b2 (ix2 r i)) * half

/-- The merged weight as an array. -/
def merged (w0 : (⟨2, ![4096, 4096]⟩ : Shape).Idx → EReal)
    (a1 : (⟨2, ![4096, 32]⟩ : Shape).Idx → EReal) (b1 : (⟨2, ![32, 4096]⟩ : Shape).Idx → EReal)
    (a2 : (⟨2, ![4096, 32]⟩ : Shape).Idx → EReal) (b2 : (⟨2, ![32, 4096]⟩ : Shape).Idx → EReal) :
    (⟨2, ![4096, 4096]⟩ : Shape).Idx → EReal :=
  fun j => mergedEntry w0 a1 b1 a2 b2 (j 0) (j 1)

/-- The linear layer over flattened activations: row `m` of x against row `o` of the weight, plus the bias. -/
def linearFlat (x : (⟨2, ![16384, 4096]⟩ : Shape).Idx → EReal) (W : (⟨2, ![4096, 4096]⟩ : Shape).Idx → EReal)
    (b : (⟨1, ![4096]⟩ : Shape).Idx → EReal) : (⟨2, ![16384, 4096]⟩ : Shape).Idx → EReal :=
  fun j => (∑ k : Fin 4096, x (ix2 (j 0) k) * W (ix2 (j 1) k)) + b (ix1 (j 1))

/-- The same over the rank-3 activations. -/
def linear3 (x : (⟨3, ![4, 4096, 4096]⟩ : Shape).Idx → EReal) (W : (⟨2, ![4096, 4096]⟩ : Shape).Idx → EReal)
    (b : (⟨1, ![4096]⟩ : Shape).Idx → EReal) : (⟨3, ![4, 4096, 4096]⟩ : Shape).Idx → EReal :=
  fun j => (∑ k : Fin 4096, x (ix3 (j 0) (j 1) k) * W (ix2 (j 2) k)) + b (ix1 (j 2))

end Cert.Spec

end
-- ==== Proof.KernelValue.lean ====
/-
  The idealized kernel's result as a function of the arguments, given what each region leaves in its output array.
  Reading the fold of buffer contents through @main from the end: the result is the reshape (16384 × 4096 →
  4 × 4096 × 4096) of what the tiled product leaves, which is the linear layer over (i) the activations reshaped to
  16384 × 4096 (their narrowing to bf16 is the identity on the extended reals), (ii) what the tile kernel leaves in the
  weight array, the merged weight of the arguments, and (iii) the bias as launched. A reshape keeps the row-major
  position, so the flat row bb·4096 + s is the row (bb, s).
-/
import proofs.«109634_j3753801417310_1_alg».proof.Proof.MainRun
import proofs.«109634_j3753801417310_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)
open Idealize.ShloMosaic.StableHlo

variable (m : (ℓ : Loc nD τ sig) → Buf (Elt Ideal) ℓ)

/-- The linear layer commutes with flattening the activations' two leading axes. -/
theorem linear3_of_flat (x : (⟨3, ![4, 4096, 4096]⟩ : Shape).Idx → EReal) (W : (⟨2, ![4096, 4096]⟩ : Shape).Idx → EReal)
    (b : (⟨1, ![4096]⟩ : Shape).Idx → EReal) (h1 : S4x4096x4096.ShapeCasts S16384x4096) (h2 : S16384x4096.ShapeCasts S4x4096x4096) :
    shapeCast S4x4096x4096 (Cert.Spec.linearFlat (shapeCast S16384x4096 x h1) W b) h2 = Cert.Spec.linear3 x W b := by
  funext i
  obtain ⟨bb, s, o, rfl⟩ : ∃ (bb : Fin 4) (s : Fin 4096) (o : Fin 4096), i = ix3 bb s o := ⟨i 0, i 1, i 2, eq_ix3 i⟩
  have hrow : bb.val * 4096 + s.val < 16384 := by have := bb.isLt; have := s.isLt; omega
  rw [shapeCast_apply _ h2 (ix3 bb s o) (ix2 (⟨bb.val * 4096 + s.val, hrow⟩ : Fin 16384) o) (by
    rw [Shape.rowMajor_val_two, Shape.rowMajor_val_three]; rfl)]
  unfold Cert.Spec.linearFlat Cert.Spec.linear3
  refine congrArg (· + b (ix1 o)) (Finset.sum_congr rfl fun k _ => ?_)
  refine congrArg (· * W (ix2 o k)) ?_
  exact shapeCast_apply _ h1 (ix2 (⟨bb.val * 4096 + s.val, hrow⟩ : Fin 16384) k) (ix3 bb s k) (by
    rw [Shape.rowMajor_val_two, Shape.rowMajor_val_three]; rfl)

/-- What region 1 finds in the activations' array: the launch activations, flattened. -/
theorem entry_x (c : Dev nD) :
    V2 m c main_v2 = shapeCast S16384x4096 (m ((c : Thread nD τ).loc main_arg0)) shapeCasts_S4x4096x4096_S16384x4096 := by
  show StableHlo.after hostOps1 (W1 m c) (Proc.devRef .tc main_v2) = _
  after_results
  rw [W1_of_ne m c main_arg0 (by decide)]
  rfl

/-- What region 1 finds in the weight's array: what region 0 left there. -/
theorem entry_w (c : Dev nD) : V2 m c main_v0 = (wdat (V0 m) c).arrAt 5 cfg0.N :=
  (StableHlo.after_of_writes_sub hostOps1 _ hostOps1_writes (by decide)).trans (W1_arr m c 5)

/-- What region 1 finds in the bias' array: the launch bias. -/
theorem entry_b (c : Dev nD) : V2 m c main_arg2 = m ((c : Thread nD τ).loc main_arg2) :=
  (StableHlo.after_of_writes_sub hostOps1 _ hostOps1_writes (by decide)).trans (W1_of_ne m c main_arg2 (by decide))

/-- The result buffer at the end: the reshape of what region 1 left. -/
theorem result_eq (c : Dev nD) :
    W4 m c (Proc.devRef .tc main_v4) = shapeCast S4x4096x4096 ((adat (V2 m) c).arrAt 3 cfg1.N) shapeCasts_S16384x4096_S4x4096x4096 := by
  show StableHlo.after hostOps2 (W3 m c) (Proc.devRef .tc main_v4) = _
  after_results
  rw [show W3 m c (Proc.devRef .tc main_v3) = (adat (V2 m) c).arrAt 3 cfg1.N from W3_arr m c 3]
  rfl

/-- THE KERNEL'S VALUE: given that region 0 leaves the merged weight of what it finds and region 1 the linear layer of what
    it finds, the result buffer ends at the linear layer of the launch arguments over their merged weight. -/
theorem kernel_value
    (hW : ∀ (V : (c : Dev nD) → (b : Ref sig .tc) → Buf (Elt Ideal) ((c : Thread nD τ).loc b)) (c : Dev nD),
      (wdat (F := Ideal) V c).arrAt 5 cfg0.N
        = Cert.Spec.merged (V c main_arg1) (V c main_arg3) (V c main_arg4) (V c main_arg5) (V c main_arg6))
    (hA : ∀ (V : (c : Dev nD) → (b : Ref sig .tc) → Buf (Elt Ideal) ((c : Thread nD τ).loc b)) (c : Dev nD),
      (adat (F := Ideal) V c).arrAt 3 cfg1.N = Cert.Spec.linearFlat (V c main_v2) (V c main_v0) (V c main_arg2))
    (c : Dev nD) :
    W4 m c (Proc.devRef .tc main_v4)
      = Cert.Spec.linear3 (m ((c : Thread nD τ).loc main_arg0))
          (Cert.Spec.merged (m ((c : Thread nD τ).loc main_arg1)) (m ((c : Thread nD τ).loc main_arg3)) (m ((c : Thread nD τ).loc main_arg4))
            (m ((c : Thread nD τ).loc main_arg5)) (m ((c : Thread nD τ).loc main_arg6)))
          (m ((c : Thread nD τ).loc main_arg2)) := by
  rw [result_eq, hA (V2 m) c, entry_x, entry_w, entry_b, hW (V0 m) c]
  exact linear3_of_flat _ _ _ _ _

/-- The idealized kernel's run with its result named and its arguments unchanged. -/
theorem run_value
    (hW : ∀ (V : (c : Dev nD) → (b : Ref sig .tc) → Buf (Elt Ideal) ((c : Thread nD τ).loc b)) (c : Dev nD),
      (wdat (F := Ideal) V c).arrAt 5 cfg0.N
        = Cert.Spec.merged (V c main_arg1) (V c main_arg3) (V c main_arg4) (V c main_arg5) (V c main_arg6))
    (hA : ∀ (V : (c : Dev nD) → (b : Ref sig .tc) → Buf (Elt Ideal) ((c : Thread nD τ).loc b)) (c : Dev nD),
      (adat (F := Ideal) V c).arrAt 3 cfg1.N = Cert.Spec.linearFlat (V c main_v2) (V c main_v0) (V c main_arg2))
    (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = Cert.Spec.linear3 (m ((c : Thread nD τ).loc main_arg0))
            (Cert.Spec.merged (m ((c : Thread nD τ).loc main_arg1)) (m ((c : Thread nD τ).loc main_arg3)) (m ((c : Thread nD τ).loc main_arg4))
              (m ((c : Thread nD τ).loc main_arg5)) (m ((c : Thread nD τ).loc main_arg6)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v4 (by decide))).trans (kernel_value m hW hA c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_all m ρ)

end Cert.KernelIdeal.Val

end
-- ==== Proof.WeightValue.lean ====
/-
  What region 0 leaves in the merged-weight array, at the ideal instance: every tile (o, i) of the 4 × 4 grid is written
  back once, holding base + (A₁·B₁) ∘ (A₂·B₂) · ½ of the blocks it read, and the blocks are restrictions of the whole
  arrays, so the array after the region is the merged weight of the specification, entry by entry.
-/
import proofs.«109634_j3753801417310_1_alg».proof.Proof.WeightTile
import proofs.«109634_j3753801417310_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.WeightVal

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

/-! ## One tile: the body's store at an entry -/

/-- The whole-buffer rectangles sit at offset zero on both axes. -/
theorem zero_offsets : (![0, 0] : Fin 2 → Nat) = fun _ => 0 := funext fun a => by fin_cases a <;> rfl

/-- The tile matmul's operand indices, axis by axis: at output entry (p, q) and contraction index r the left operand is
    read at (p, r) and the right at (r, q). -/
theorem lhs_axis0 (i : S1024x1024.Idx) (q : dot_S1024x32_S32x1024_S1024x1024_1_0_0_1_n_n.contr.Idx) :
    (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
theorem lhs_axis1 (i : S1024x1024.Idx) (q : dot_S1024x32_S32x1024_S1024x1024_1_0_0_1_n_n.contr.Idx) :
    (dot_S1024x32_S32x1024_S1024x1024_1_0_0_1_n_n.lhsIdx i q 1).val = (q ⟨0, by decide⟩).val :=
  dot_S1024x32_S32x1024_S1024x1024_1_0_0_1_n_n.lhsIdx_val_of_single rfl i q
theorem rhs_axis0 (i : S1024x1024.Idx) (q : dot_S1024x32_S32x1024_S1024x1024_1_0_0_1_n_n.contr.Idx) :
    (dot_S1024x32_S32x1024_S1024x1024_1_0_0_1_n_n.rhsIdx i q 0).val = (q ⟨0, by decide⟩).val :=
  dot_S1024x32_S32x1024_S1024x1024_1_0_0_1_n_n.rhsIdx_val_of_single rfl i q
theorem rhs_axis1 (i : S1024x1024.Idx) (q : dot_S1024x32_S32x1024_S1024x1024_1_0_0_1_n_n.contr.Idx) :
    (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl

/-- A tile's low-rank product at an entry: the rank-32 sum of row p of the left strip against column q of the right. -/
theorem lowrank_apply (a : FVec Ideal S1024x32 .bf16) (b : FVec Ideal S32x1024 .bf16) (p q : Fin 1024) :
    FloatOps.matmul dot_S1024x32_S32x1024_S1024x1024_1_0_0_1_n_n none a b (constant (F := Ideal) S1024x1024 .f32 0x00000000#32) (ix2 p q)
      = ∑ r : Fin 32, a (ix2 p r) * b (ix2 r q) := by
  rw [Ideal.matmul_constant_zero_apply, ← Equiv.sum_comp (ValueIdx.contrEquiv1 dot_S1024x32_S32x1024_S1024x1024_1_0_0_1_n_n 32 rfl rfl).symm]
  refine Finset.sum_congr rfl fun k _ => ?_
  have hk := ValueIdx.contrEquiv1_symm_val dot_S1024x32_S32x1024_S1024x1024_1_0_0_1_n_n 32 rfl rfl k
  have el : dot_S1024x32_S32x1024_S1024x1024_1_0_0_1_n_n.lhsIdx (ix2 p q) ((ValueIdx.contrEquiv1 dot_S1024x32_S32x1024_S1024x1024_1_0_0_1_n_n 32 rfl rfl).symm k) = ix2 p k := funext fun a => Fin.ext (by
    match a with
    | ⟨0, _⟩ => exact lhs_axis0 _ _
    | ⟨1, _⟩ => exact (lhs_axis1 _ _).trans hk)
  have er : dot_S1024x32_S32x1024_S1024x1024_1_0_0_1_n_n.rhsIdx (ix2 p q) ((ValueIdx.contrEquiv1 dot_S1024x32_S32x1024_S1024x1024_1_0_0_1_n_n 32 rfl rfl).symm k) = ix2 k q := funext fun a => Fin.ext (by
    match a with
    | ⟨0, _⟩ => exact (rhs_axis0 _ _).trans hk
    | ⟨1, _⟩ => exact rhs_axis1 _ _)
  rw [el, er]

/-- What the body stores, at entry (p, q) of the tile: the base tile's entry plus the product of the two rank-32 sums
    times ½. The changes of float format are the identity on the extended reals, and the zero accumulators add nothing. -/
theorem wOut_apply (w0 : Vec Ideal S1024x1024 .f32) (a1 : Vec Ideal S1024x32 .f32) (b1 : Vec Ideal S32x1024 .f32)
    (a2 : Vec Ideal S1024x32 .f32) (b2 : Vec Ideal S32x1024 .f32) (p q : Fin 1024) :
    wOut (F := Ideal) w0 a1 b1 a2 b2 (ix2 p q)
      = w0 (ix2 p q) + (∑ r : Fin 32, a1 (ix2 p r) * b1 (ix2 r q)) * (∑ r : Fin 32, a2 (ix2 p r) * b2 (ix2 r q)) * Cert.Spec.half := by
  unfold wOut
  rw [View.canon_unit_zero zero_offsets]
  simp only [View.ld_unit_zero (S := S1024x1024) zero_offsets, View.ld_unit_zero (S := S1024x32) zero_offsets, View.ld_unit_zero (S := S32x1024) zero_offsets]
  unfold k0_pay1
  show w0 (ix2 p q) + (FloatOps.matmul dot_S1024x32_S32x1024_S1024x1024_1_0_0_1_n_n none (truncf .bf16 a1 bitsLt_bf16_f32) (truncf .bf16 b1 bitsLt_bf16_f32) (constant (F := Ideal) S1024x1024 .f32 0x00000000#32) (ix2 p q)
      * FloatOps.matmul dot_S1024x32_S32x1024_S1024x1024_1_0_0_1_n_n none (truncf .bf16 a2 bitsLt_bf16_f32) (truncf .bf16 b2 bitsLt_bf16_f32) (constant (F := Ideal) S1024x1024 .f32 0x00000000#32) (ix2 p q)) * Cert.Spec.half = _
  rw [lowrank_apply, lowrank_apply]
  simp only [truncf_apply]

/-! ## From tiles to the array -/

section Tiles

variable (V : (c : Dev nD) → (b : Ref sig .tc) → Buf (Elt Ideal) ((c : Thread nD τ).loc b))

/-- The printed index maps over the 16 points: the base tile moves with the output tile, the left strips with its row
    of tiles, the right strips with its column of tiles, and the output's tile indices stay below 4. -/
theorem tile_indices : ∀ t : Fin cfg0.N,
    win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = 0
    ∧ win0_2.index t (0 : Fin 2) = 0 ∧ win0_2.index t (1 : Fin 2) = win0_5.index t (1 : Fin 2)
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 3 ∧ win0_5.index t (1 : Fin 2) ≤ 3 :=
  (by decide +kernel : ∀ t : Fin grid0.N, _)

/-- Every tile of the 4 × 4 array of tiles is some point's. -/
theorem tile_onto : ∀ (q0 : Fin 4) (q1 : Fin 4), ∃ t : Fin cfg0.N, win0_5.index t = ![q0.val, q1.val] :=
  (by decide +kernel : ∀ (q0 : Fin 4) (q1 : Fin 4), ∃ t : Fin grid0.N, win0_5.index t = ![q0.val, q1.val])

/-- The base weight's tile at a point is the array read at tile index × 1024 plus the coordinate inside the tile, on each axis. -/
theorem base_block (c : Dev nD) (t : Fin cfg0.N) (x : S1024x1024.Idx) (k : S4096x4096.Idx)
    (h0 : (k 0).val = win0_0.index t (0 : Fin 2) * 1024 + (x 0).val) (h1 : (k 1).val = win0_0.index t (1 : Fin 2) * 1024 + (x 1).val) :
    (wblk V c 0 t : Vec Ideal S1024x1024 .f32) x = (V c main_arg1 : S4096x4096.Idx → EReal) k := by
  unfold wblk
  rw [View.read_apply]
  show V c main_arg1 (((cfg0.win 0).blk t).view.emb x) = V c main_arg1 k
  refine congrArg (V c main_arg1) ?_
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

/-- The first left factor's strip at a point: 1024 rows of the 4096 × 32 array, all 32 columns. -/
theorem left1_block (c : Dev nD) (t : Fin cfg0.N) (x : S1024x32.Idx) (k : S4096x32.Idx)
    (h0 : (k 0).val = win0_1.index t (0 : Fin 2) * 1024 + (x 0).val) (h1 : (k 1).val = win0_1.index t (1 : Fin 2) * 32 + (x 1).val) :
    (wblk V c 1 t : Vec Ideal S1024x32 .f32) x = (V c main_arg3 : S4096x32.Idx → EReal) k := by
  unfold wblk
  rw [View.read_apply]
  show V c main_arg3 (((cfg0.win 1).blk t).view.emb x) = V c main_arg3 k
  refine congrArg (V c main_arg3) ?_
  funext a
  apply Fin.ext
  match a with
  | ⟨0, _⟩ => show win0_1.index t (0 : Fin 2) * 1024 + 1 * (x 0).val = (k 0).val; omega
  | ⟨1, _⟩ => show win0_1.index t (1 : Fin 2) * 32 + 1 * (x 1).val = (k 1).val; omega

/-- The first right factor's strip at a point: all 32 rows, 1024 columns of the 32 × 4096 array. -/
theorem right1_block (c : Dev nD) (t : Fin cfg0.N) (x : S32x1024.Idx) (k : S32x4096.Idx)
    (h0 : (k 0).val = win0_2.index t (0 : Fin 2) * 32 + (x 0).val) (h1 : (k 1).val = win0_2.index t (1 : Fin 2) * 1024 + (x 1).val) :
    (wblk V c 2 t : Vec Ideal S32x1024 .f32) x = (V c main_arg4 : S32x4096.Idx → EReal) k := by
  unfold wblk
  rw [View.read_apply]
  show V c main_arg4 (((cfg0.win 2).blk t).view.emb x) = V c main_arg4 k
  refine congrArg (V c main_arg4) ?_
  funext a
  apply Fin.ext
  match a with
  | ⟨0, _⟩ => show win0_2.index t (0 : Fin 2) * 32 + 1 * (x 0).val = (k 0).val; omega
  | ⟨1, _⟩ => show win0_2.index t (1 : Fin 2) * 1024 + 1 * (x 1).val = (k 1).val; omega

/-- The second left factor's strip at a point. -/
theorem left2_block (c : Dev nD) (t : Fin cfg0.N) (x : S1024x32.Idx) (k : S4096x32.Idx)
    (h0 : (k 0).val = win0_3.index t (0 : Fin 2) * 1024 + (x 0).val) (h1 : (k 1).val = win0_3.index t (1 : Fin 2) * 32 + (x 1).val) :
    (wblk V c 3 t : Vec Ideal S1024x32 .f32) x = (V c main_arg5 : S4096x32.Idx → EReal) k := by
  unfold wblk
  rw [View.read_apply]
  show V c main_arg5 (((cfg0.win 3).blk t).view.emb x) = V c main_arg5 k
  refine congrArg (V c main_arg5) ?_
  funext a
  apply Fin.ext
  match a with
  | ⟨0, _⟩ => show win0_3.index t (0 : Fin 2) * 1024 + 1 * (x 0).val = (k 0).val; omega
  | ⟨1, _⟩ => show win0_3.index t (1 : Fin 2) * 32 + 1 * (x 1).val = (k 1).val; omega

/-- The second right factor's strip at a point. -/
theorem right2_block (c : Dev nD) (t : Fin cfg0.N) (x : S32x1024.Idx) (k : S32x4096.Idx)
    (h0 : (k 0).val = win0_4.index t (0 : Fin 2) * 32 + (x 0).val) (h1 : (k 1).val = win0_4.index t (1 : Fin 2) * 1024 + (x 1).val) :
    (wblk V c 4 t : Vec Ideal S32x1024 .f32) x = (V c main_arg6 : S32x4096.Idx → EReal) k := by
  unfold wblk
  rw [View.read_apply]
  show V c main_arg6 (((cfg0.win 4).blk t).view.emb x) = V c main_arg6 k
  refine congrArg (V c main_arg6) ?_
  funext a
  apply Fin.ext
  match a with
  | ⟨0, _⟩ => show win0_4.index t (0 : Fin 2) * 32 + 1 * (x 0).val = (k 0).val; omega
  | ⟨1, _⟩ => show win0_4.index t (1 : Fin 2) * 1024 + 1 * (x 1).val = (k 1).val; omega

/-- What point `t` writes back is its tile of the merged weight of the arrays the region found: entry (p, q) of the
    tile reads the base weight at (o, i), row o of the left factors and column i of the right factors, with
    o = tile row × 1024 + p and i = tile column × 1024 + q. -/
theorem flushed_eq (c : Dev nD) (t : Fin cfg0.N) :
    (wdat (F := Ideal) V c).flushed 5 t
      = ((cfg0.win 5).blk t).view.read (Elt Ideal)
          (Cert.Spec.merged (V c main_arg1) (V c main_arg3) (V c main_arg4) (V c main_arg5) (V c main_arg6)) := by
  show (cfg0.win 5).cut (grid0.coords t) ((wdat (F := Ideal) V c).after 5 t) = _
  rw [wafter5]
  funext j
  obtain ⟨p, q, rfl⟩ : ∃ (p : Fin 1024) (q : Fin 1024), j = ix2 p q := ⟨j 0, j 1, eq_ix2 j⟩
  refine (wOut_apply (wblk V c 0 t) (wblk V c 1 t) (wblk V c 2 t) (wblk V c 3 t) (wblk V c 4 t) p q).trans ?_
  obtain ⟨e00, e01, e10, e11, e20, e21, e30, e31, e40, e41, b0, b1⟩ := tile_indices t
  have hp : p.val < 1024 := p.isLt
  have hq : q.val < 1024 := q.isLt
  have ho : win0_5.index t (0 : Fin 2) * 1024 + p.val < 4096 := by omega
  have hi : win0_5.index t (1 : Fin 2) * 1024 + q.val < 4096 := by omega
  rw [View.read_apply]
  have he : ((cfg0.win 5).blk t).view.emb (ix2 p q)
      = (ix2 (⟨win0_5.index t (0 : Fin 2) * 1024 + p.val, ho⟩ : Fin 4096) (⟨win0_5.index t (1 : Fin 2) * 1024 + q.val, hi⟩ : Fin 4096) : S4096x4096.Idx) := by
    funext a
    apply Fin.ext
    match a with
    | ⟨0, _⟩ => show win0_5.index t (0 : Fin 2) * 1024 + 1 * p.val = win0_5.index t (0 : Fin 2) * 1024 + p.val; omega
    | ⟨1, _⟩ => show win0_5.index t (1 : Fin 2) * 1024 + 1 * q.val = win0_5.index t (1 : Fin 2) * 1024 + q.val; omega
  show _ = Cert.Spec.merged (V c main_arg1) (V c main_arg3) (V c main_arg4) (V c main_arg5) (V c main_arg6) (((cfg0.win 5).blk t).view.emb (ix2 p q))
  rw [he]
  show _ = Cert.Spec.mergedEntry (V c main_arg1) (V c main_arg3) (V c main_arg4) (V c main_arg5) (V c main_arg6)
    (⟨win0_5.index t (0 : Fin 2) * 1024 + p.val, ho⟩ : Fin 4096) (⟨win0_5.index t (1 : Fin 2) * 1024 + q.val, hi⟩ : Fin 4096)
  unfold Cert.Spec.mergedEntry
  refine congrArg₂ (· + ·) (base_block V c t (ix2 p q) _ ?_ ?_)
    (congrArg₂ (· * ·)
      (congrArg₂ (· * ·)
        (Finset.sum_congr rfl fun r _ => congrArg₂ (· * ·) (left1_block V c t (ix2 p r) _ ?_ ?_) (right1_block V c t (ix2 r q) _ ?_ ?_))
        (Finset.sum_congr rfl fun r _ => congrArg₂ (· * ·) (left2_block V c t (ix2 p r) _ ?_ ?_) (right2_block V c t (ix2 r q) _ ?_ ?_)))
      rfl)
  · show win0_5.index t (0 : Fin 2) * 1024 + p.val = win0_0.index t (0 : Fin 2) * 1024 + p.val; omega
  · show win0_5.index t (1 : Fin 2) * 1024 + q.val = win0_0.index t (1 : Fin 2) * 1024 + q.val; omega
  · show win0_5.index t (0 : Fin 2) * 1024 + p.val = win0_1.index t (0 : Fin 2) * 1024 + p.val; omega
  · show r.val = win0_1.index t (1 : Fin 2) * 32 + r.val; omega
  · show r.val = win0_2.index t (0 : Fin 2) * 32 + r.val; omega
  · show win0_5.index t (1 : Fin 2) * 1024 + q.val = win0_2.index t (1 : Fin 2) * 1024 + q.val; omega
  · show win0_5.index t (0 : Fin 2) * 1024 + p.val = win0_3.index t (0 : Fin 2) * 1024 + p.val; omega
  · show r.val = win0_3.index t (1 : Fin 2) * 32 + r.val; omega
  · show r.val = win0_4.index t (0 : Fin 2) * 32 + r.val; omega
  · show win0_5.index t (1 : Fin 2) * 1024 + q.val = win0_4.index t (1 : Fin 2) * 1024 + q.val; omega

/-- An entry of the array is in point `t`'s tile iff each coordinate lies in the tile's range on its axis. -/
theorem mem_tile (t : Fin cfg0.N) (i : S4096x4096.Idx) :
    i ∈ ((cfg0.win 5).blk t).view.set
      ↔ ∀ a : Fin 2, win0_5.index t a * S1024x1024.size a ≤ (i a).val ∧ (i a).val < win0_5.index t a * S1024x1024.size a + S1024x1024.size a := by
  show i ∈ ((View.whole main_v0).slice (win0_5.rect t)).set ↔ _
  rw [View.set_slice_whole, Rect.mem_set_unit]
  exact Iff.rfl

/-- The tiles cover the array: entry (o, i) lies in the tile (o / 1024, i / 1024). -/
theorem tiles_cover (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := tile_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_tile]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

end Tiles

/-- After region 0, the output window's array is the merged weight of the arrays the region found. -/
theorem weight_final (V : (c : Dev nD) → (b : Ref sig .tc) → Buf (Elt Ideal) ((c : Thread nD τ).loc b)) (c : Dev nD) :
    (wdat (F := Ideal) V c).arrAt 5 cfg0.N
      = Cert.Spec.merged (V c main_arg1) (V c main_arg3) (V c main_arg4) (V c main_arg5) (V c main_arg6) :=
  (wdat (F := Ideal) V c).arrAt_eq_of_cover 5
    (Cert.Spec.merged (V c main_arg1) (V c main_arg3) (V c main_arg4) (V c main_arg5) (V c main_arg6))
    (fun t _ => flushed_eq V c t) tiles_cover

end Cert.KernelIdeal.WeightVal

end
-- ==== Proof.AccValue.lean ====
/-
  What region 1 leaves in its output array, at the ideal instance: for each (row tile, output tile) the four k-steps
  fold the four 1024-wide slices of the contraction into the accumulator, starting from zero, and the last k-step
  stores accumulator + bias and writes the tile back; a sum over 4096 is the sum of its four slices' sums, so the array
  after the region is the linear layer of the specification over the flattened activations.

  In order: the tile product at an index (row p of the activation tile against row q of the weight tile) and the three
  stored values at an index; the blocks read off the arrays (point t is row tile t / 16, output tile t / 4 % 4, k-step
  t % 4; a block's coordinate is its index times its size plus the coordinate inside it); the sum over 4096 columns as
  the sum over the four slices; the accumulator after point n as the sum of the slices 0 … n % 4, by induction on the
  point; the tile stored at a last k-step as the whole contraction plus the bias; every entry (m, o) covered by the last
  k-step of (m / 2048, o / 1024).
-/
import proofs.«109634_j3753801417310_1_alg».proof.Proof.AccTile
import proofs.«109634_j3753801417310_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AccVal

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

/-! ## The tile product at an index -/

theorem lhs_tile_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_tile_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs_tile_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_tile_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The tile product into the zero splat, at (p, q): row p of the activation tile against row q of the weight tile. -/
theorem tile_product_apply (x : FVec Ideal S2048x1024 .bf16) (w : FVec Ideal S1024x1024 .bf16) (p : Fin 2048) (q : Fin 1024) :
    matmul dot_S2048x1024_S1024x1024_S2048x1024_1_1_0_0_n_n none x w (constant (F := Ideal) S2048x1024 .f32 0x00000000#32) (ix2 p q)
      = ∑ j : Fin 1024, x (ix2 p j) * w (ix2 q j) := by
  refine (Ideal.matmul_constant_zero_apply dot_S2048x1024_S1024x1024_S2048x1024_1_1_0_0_n_n none x w (ix2 p q)).trans ?_
  rw [← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 p q) ((ValueIdx.contrEquiv1 dot_S2048x1024_S1024x1024_S2048x1024_1_1_0_0_n_n 1024 rfl rfl).symm k) = ix2 p k := funext fun a => Fin.ext (by
    match a with
    | ⟨0, _⟩ => exact lhs_tile_0 _ _
    | ⟨1, _⟩ => exact (lhs_tile_1 _ _).trans hk)
  have er : dot_S2048x1024_S1024x1024_S2048x1024_1_1_0_0_n_n.rhsIdx (ix2 p q) ((ValueIdx.contrEquiv1 dot_S2048x1024_S1024x1024_S2048x1024_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]

/-! ## The three payloads at an index -/

/-- First k-step: zero plus the tile product. -/
theorem accFirst_apply (x : Vec Ideal S2048x1024 .bf16) (w : Vec Ideal S1024x1024 .bf16) (p : Fin 2048) (q : Fin 1024) :
    accFirst (F := Ideal) x w (ix2 p q) = ∑ j : Fin 1024, (x (ix2 p j) : EReal) * (w (ix2 q j) : EReal) := by
  unfold accFirst k1_pay2 k1_pay1
  simp only [shapeCast_self]
  refine (addf_apply _ _ _).trans ?_
  rw [tile_product_apply]
  show Ideal.ofBits .f32 0x00000000#32 + _ = _
  rw [Ideal.ofBits_zero_f32, zero_add]

/-- A later k-step: what was there plus the tile product. -/
theorem accNext_apply (s : Vec Ideal S2048x1024 .f32) (x : Vec Ideal S2048x1024 .bf16) (w : Vec Ideal S1024x1024 .bf16) (p : Fin 2048) (q : Fin 1024) :
    accNext (F := Ideal) s x w (ix2 p q) = (s (ix2 p q) : EReal) + ∑ j : Fin 1024, (x (ix2 p j) : EReal) * (w (ix2 q j) : EReal) := by
  unfold accNext k1_pay2
  simp only [shapeCast_self]
  refine (addf_apply _ _ _).trans ?_
  rw [tile_product_apply]

/-- The bias row broadcast over the tile's rows, at (p, q): the bias at q. -/
theorem bias_rows_apply (b : Vec Ideal S1024 .f32) (p : Fin 2048) (q : Fin 1024) :
    broadcastTo S2048x1024 (shapeCast S1x1024 (shapeCast S1x1024 b shapeCasts_S1024_S1x1024) shapeCasts_S1x1024_S1x1024) broadcasts_S1x1024_S2048x1024 (ix2 p q)
      = b (ix1 q) := by
  rw [shapeCast_self]
  refine (broadcastTo_1b_ab_apply _ broadcasts_S1x1024_S2048x1024 p q).trans ?_
  exact shapeCast_a_1a_apply b shapeCasts_S1024_S1x1024 (0 : Fin 1) q

/-- The last k-step's stored tile: (what was there plus the tile product) plus the bias. -/
theorem outLast_apply (s : Vec Ideal S2048x1024 .f32) (x : Vec Ideal S2048x1024 .bf16) (w : Vec Ideal S1024x1024 .bf16) (b : Vec Ideal S1024 .f32)
    (p : Fin 2048) (q : Fin 1024) :
    outLast (F := Ideal) s x w b (ix2 p q)
      = ((s (ix2 p q) : EReal) + ∑ j : Fin 1024, (x (ix2 p j) : EReal) * (w (ix2 q j) : EReal)) + (b (ix1 q) : EReal) := by
  unfold outLast k1_pay3
  refine (addf_apply _ _ _).trans ?_
  rw [bias_rows_apply]
  exact congrArg (· + (b (ix1 q) : EReal)) (accNext_apply s x w p q)

/-! ## A sum over 4096 is the sum of its four 1024-slices' sums -/

/-- Column s·1024 + k of the 4096 columns, for a slice s below 4. -/
def colAt (s : ℕ) (k : Fin 1024) : Fin 4096 := ⟨(s * 1024 + k.val) % 4096, Nat.mod_lt _ (by decide)⟩

theorem colAt_val (s : ℕ) (hs : s < 4) (k : Fin 1024) : (colAt s k).val = s * 1024 + k.val := by
  show (s * 1024 + k.val) % 4096 = _
  have := k.isLt
  omega

/-- Reindexing only: an additive commutative monoid, no finiteness and no distributivity. -/
theorem sum_four_slices {M : Type*} [AddCommMonoid M] (f : Fin 4096 → M) :
    ∑ k : Fin 4096, f k = ∑ s ∈ Finset.range 4, ∑ j : Fin 1024, f (colAt s j) := by
  rw [← Fin.sum_univ_eq_sum_range (fun s => ∑ j : Fin 1024, f (colAt s j)) 4]
  rw [← Equiv.sum_comp (finProdFinEquiv (m := 4) (n := 1024)) f, Fintype.sum_prod_type]
  refine Finset.sum_congr rfl fun s _ => Finset.sum_congr rfl fun j _ => congrArg f (Fin.ext ?_)
  show j.val + 1024 * s.val = (s.val * 1024 + j.val) % 4096
  have := s.isLt
  have := j.isLt
  omega

section Region

-- the TensorCore's buffer contents when the region is entered
variable (V : (c : Dev nD) → (b : Ref sig .tc) → Buf (Elt Ideal) ((c : Thread nD τ).loc b))

/-! ## The blocks, read off the arrays -/

/-- The block indices over the grid: point t is (row tile, output tile, k-step) = (t / 16, t / 4 % 4, t % 4). -/
theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4 :=
  (by decide +kernel : ∀ t : Fin grid1.N, _)

/-- The three input blocks at a point and the three arrays, at their literal types. -/
abbrev xblk (c : Dev nD) (t : Fin cfg1.N) : Vec Ideal S2048x1024 .bf16 := ablk (F := Ideal) V c 0 t
abbrev wblk (c : Dev nD) (t : Fin cfg1.N) : Vec Ideal S1024x1024 .bf16 := ablk (F := Ideal) V c 1 t
abbrev bblk (c : Dev nD) (t : Fin cfg1.N) : Vec Ideal S1024 .f32 := ablk (F := Ideal) V c 2 t
abbrev xarr (c : Dev nD) : (⟨2, ![16384, 4096]⟩ : Shape).Idx → EReal := V c main_v2
abbrev warr (c : Dev nD) : (⟨2, ![4096, 4096]⟩ : Shape).Idx → EReal := V c main_v0
abbrev barr (c : Dev nD) : (⟨1, ![4096]⟩ : Shape).Idx → EReal := V c main_arg2

/-- The activation block at point t is rows (t / 16)·2048 + · and columns (t % 4)·1024 + · of the activations. -/
theorem xblk_apply (c : Dev nD) (t : Fin cfg1.N) (p : Fin 2048) (j : Fin 1024) (m : Fin 16384) (k : Fin 4096)
    (hm : m.val = t.val / 16 * 2048 + p.val) (hk : k.val = t.val % 4 * 1024 + j.val) :
    xblk V c t (ix2 p j) = xarr V c (ix2 m k) := by
  obtain ⟨e0, e1, -⟩ := idx_facts t
  show ((cfg1.win 0).blk t).view.read (Elt Ideal) (V c main_v2) (ix2 p j) = V c main_v2 (ix2 m k)
  rw [View.read_apply]
  show V c main_v2 _ = V c main_v2 _
  refine congrArg (V c main_v2) (funext fun a => Fin.ext ?_)
  match a with
  | ⟨0, _⟩ => show win1_0.index t (0 : Fin 2) * 2048 + 1 * p.val = m.val; rw [e0, hm]; omega
  | ⟨1, _⟩ => show win1_0.index t (1 : Fin 2) * 1024 + 1 * j.val = k.val; rw [e1, hk]; omega

/-- The weight block at point t is rows (t / 4 % 4)·1024 + · and columns (t % 4)·1024 + · of the weight. -/
theorem wblk_apply (c : Dev nD) (t : Fin cfg1.N) (q : Fin 1024) (j : Fin 1024) (o : Fin 4096) (k : Fin 4096)
    (ho : o.val = t.val / 4 % 4 * 1024 + q.val) (hk : k.val = t.val % 4 * 1024 + j.val) :
    wblk V c t (ix2 q j) = warr V c (ix2 o k) := by
  obtain ⟨-, -, e2, e3, -⟩ := idx_facts t
  show ((cfg1.win 1).blk t).view.read (Elt Ideal) (V c main_v0) (ix2 q j) = V c main_v0 (ix2 o k)
  rw [View.read_apply]
  show V c main_v0 _ = V c main_v0 _
  refine congrArg (V c main_v0) (funext fun a => Fin.ext ?_)
  match a with
  | ⟨0, _⟩ => show win1_1.index t (0 : Fin 2) * 1024 + 1 * q.val = o.val; rw [e2, ho]; omega
  | ⟨1, _⟩ => show win1_1.index t (1 : Fin 2) * 1024 + 1 * j.val = k.val; rw [e3, hk]; omega

/-- The bias block at point t is entries (t / 4 % 4)·1024 + · of the bias. -/
theorem bblk_apply (c : Dev nD) (t : Fin cfg1.N) (q : Fin 1024) (o : Fin 4096)
    (ho : o.val = t.val / 4 % 4 * 1024 + q.val) :
    bblk V c t (ix1 q) = barr V c (ix1 o) := by
  obtain ⟨-, -, -, -, e4, -⟩ := idx_facts t
  show ((cfg1.win 2).blk t).view.read (Elt Ideal) (V c main_arg2) (ix1 q) = V c main_arg2 (ix1 o)
  rw [View.read_apply]
  show V c main_arg2 _ = V c main_arg2 _
  refine congrArg (V c main_arg2) (funext fun a => Fin.ext ?_)
  match a with
  | ⟨0, _⟩ => show win1_2.index t (0 : Fin 1) * 1024 + 1 * q.val = o.val; rw [e4, ho]; omega

/-! ## What the accumulator holds after each point -/

/-- One 1024-slice's contribution to entry (m, o): columns s·1024 + · of row m of the activations against row o of the weight. -/
def sliceDot (X : (⟨2, ![16384, 4096]⟩ : Shape).Idx → EReal) (W : (⟨2, ![4096, 4096]⟩ : Shape).Idx → EReal)
    (m : Fin 16384) (o : Fin 4096) (s : ℕ) : EReal :=
  ∑ j : Fin 1024, X (ix2 m (colAt s j)) * W (ix2 o (colAt s j))

/-- The tile product at point t, at (p, q), is slice t % 4's contribution to the entry the tiles sit at. -/
theorem tile_term (c : Dev nD) (t : Fin cfg1.N) (p : Fin 2048) (q : Fin 1024) (m : Fin 16384) (o : Fin 4096)
    (hm : m.val = t.val / 16 * 2048 + p.val) (ho : o.val = t.val / 4 % 4 * 1024 + q.val) :
    ∑ j : Fin 1024, (xblk V c t (ix2 p j) : EReal) * (wblk V c t (ix2 q j) : EReal)
      = sliceDot (xarr V c) (warr V c) m o (t.val % 4) := by
  unfold sliceDot
  refine Finset.sum_congr rfl fun j _ => ?_
  have hk : (colAt (t.val % 4) j).val = t.val % 4 * 1024 + j.val := colAt_val _ (Nat.mod_lt _ (by decide)) j
  rw [xblk_apply V c t p j m _ hm hk, wblk_apply V c t q j o _ ho hk]

/-- After point n, whose k-step is n % 4, the accumulator at (p, q) is the sum of the slices 0 … n % 4 of the entry
    (row tile n / 16, output tile n / 4 % 4): by induction on the point, a first k-step starting the sum afresh. -/
theorem accAt_inv (c : Dev nD) : ∀ (n : ℕ) (hn : n < cfg1.N) (p : Fin 2048) (q : Fin 1024) (m : Fin 16384) (o : Fin 4096),
    m.val = n / 16 * 2048 + p.val → o.val = n / 4 % 4 * 1024 + q.val →
    (accAt (F := Ideal) V c n hn (ix2 p q) : EReal) = ∑ s ∈ Finset.range (n % 4 + 1), sliceDot (xarr V c) (warr V c) m o s
  | 0, hn, p, q, m, o, hm, ho => by
    refine (congrFun (accAt_first (F := Ideal) V c ⟨0, hn⟩ rfl) (ix2 p q)).trans ?_
    refine (accFirst_apply (xblk V c ⟨0, hn⟩) (wblk V c ⟨0, hn⟩) p q).trans ?_
    rw [tile_term V c ⟨0, hn⟩ p q m o hm ho]
    show _ = ∑ s ∈ Finset.range 1, _
    rw [Finset.sum_range_one]
    rfl
  | n + 1, hn, p, q, m, o, hm, ho => by
    by_cases h0 : (n + 1) % 4 = 0
    · refine (congrFun (accAt_first (F := Ideal) V c ⟨n + 1, hn⟩ h0) (ix2 p q)).trans ?_
      refine (accFirst_apply (xblk V c ⟨n + 1, hn⟩) (wblk V c ⟨n + 1, hn⟩) p q).trans ?_
      rw [tile_term V c ⟨n + 1, hn⟩ p q m o hm ho]
      show sliceDot _ _ m o ((n + 1) % 4) = _
      rw [h0, Nat.zero_add, Finset.sum_range_one]
    · have ih := accAt_inv c n (Nat.lt_of_succ_lt hn) p q m o (by omega) (by omega)
      refine (congrFun (accAt_next (F := Ideal) V c ⟨n + 1, hn⟩ h0) (ix2 p q)).trans ?_
      refine (accNext_apply (accAt (F := Ideal) V c n (Nat.lt_of_succ_lt hn)) (xblk V c ⟨n + 1, hn⟩) (wblk V c ⟨n + 1, hn⟩) p q).trans ?_
      rw [ih, tile_term V c ⟨n + 1, hn⟩ p q m o hm ho]
      show _ + sliceDot _ _ m o ((n + 1) % 4) = _
      rw [show (n + 1) % 4 = n % 4 + 1 by omega]
      exact (Finset.sum_range_succ _ _).symm

/-! ## The stored tile, and the array after the region -/

/-- At a last k-step t the stored tile at (p, q) is the whole contraction of row m of the activations against row o of
    the weight, plus the bias at o — (m, o) the entry of the output array that (p, q) of tile t sits at. -/
theorem outAt_apply (c : Dev nD) (t : Fin cfg1.N) (h3 : t.val % 4 = 3) (p : Fin 2048) (q : Fin 1024) (m : Fin 16384) (o : Fin 4096)
    (hm : m.val = t.val / 16 * 2048 + p.val) (ho : o.val = t.val / 4 % 4 * 1024 + q.val) :
    (outAt (F := Ideal) V c t (ix2 p q) : EReal)
      = (∑ k : Fin 4096, xarr V c (ix2 m k) * warr V c (ix2 o k)) + barr V c (ix1 o) := by
  have ih := accAt_inv V c (t.val - 1) (Nat.lt_of_le_of_lt (Nat.sub_le _ _) t.isLt) p q m o (by omega) (by omega)
  unfold outAt
  refine (outLast_apply (accAt (F := Ideal) V c (t.val - 1) (Nat.lt_of_le_of_lt (Nat.sub_le _ _) t.isLt)) (xblk V c t) (wblk V c t) (bblk V c t) p q).trans ?_
  rw [ih, tile_term V c t p q m o hm ho, bblk_apply V c t q o ho, h3, show (t.val - 1) % 4 + 1 = 3 by omega,
    ← Finset.sum_range_succ, sum_four_slices]
  rfl

/-- The same over the literal index types: what point t writes back, at y, is the linear layer at the index y sits at. -/
theorem outAt_eq (c : Dev nD) (t : Fin cfg1.N) (h3 : t.val % 4 = 3) (y : S2048x1024.Idx) (i : S16384x4096.Idx)
    (h0 : (i 0).val = t.val / 16 * 2048 + (y 0).val) (h1 : (i 1).val = t.val / 4 % 4 * 1024 + (y 1).val) :
    (outAt (F := Ideal) V c t y : EReal) = Cert.Spec.linearFlat (V c main_v2) (V c main_v0) (V c main_arg2) i := by
  obtain ⟨p, q, rfl⟩ : ∃ (p : Fin 2048) (q : Fin 1024), y = ix2 p q := ⟨y 0, y 1, eq_ix2 y⟩
  obtain ⟨m, o, rfl⟩ : ∃ (m : Fin 16384) (o : Fin 4096), i = ix2 m o := ⟨i 0, i 1, eq_ix2 i⟩
  exact outAt_apply V c t h3 p q m o h0 h1

/-- What a last k-step writes back is its block of the linear layer of the arrays the region found. -/
theorem flushed_eq (c : Dev nD) (t : Fin cfg1.N) (hf : (cfg1.win 3).flush t = true) :
    (adat (F := Ideal) V c).flushed 3 t
      = ((cfg1.win 3).blk t).view.read (Elt Ideal) (Cert.Spec.linearFlat (V c main_v2) (V c main_v0) (V c main_arg2)) := by
  have h3 : t.val % 4 = 3 := (flush1_3 t).mp hf
  obtain ⟨-, -, -, -, -, e5, e6⟩ := idx_facts t
  show (cfg1.win 3).cut (grid1.coords t) ((adat (F := Ideal) V c).after 3 t) = _
  rw [aafter3]
  funext y
  rw [View.read_apply]
  refine outAt_eq V c t h3 _ _ ?_ ?_
  · show win1_3.index t (0 : Fin 2) * 2048 + 1 * (y 0).val = t.val / 16 * 2048 + (y 0).val
    rw [e5]; omega
  · show win1_3.index t (1 : Fin 2) * 1024 + 1 * (y 1).val = t.val / 4 % 4 * 1024 + (y 1).val
    rw [e6]; omega

/-- An index of the output array is in point t's block iff each coordinate is in the block's range on its axis. -/
theorem mem_blk (t : Fin cfg1.N) (i : S16384x4096.Idx) :
    i ∈ ((cfg1.win 3).blk t).view.set
      ↔ ∀ a : Fin 2, win1_3.index t a * S2048x1024.size a ≤ (i a).val ∧ (i a).val < win1_3.index t a * S2048x1024.size a + S2048x1024.size a := by
  show i ∈ ((View.whole main_v3).slice (win1_3.rect t)).set ↔ _
  rw [View.set_slice_whole, Rect.mem_set_unit]
  exact Iff.rfl

/-- Entry (m, o) is covered by the last k-step of (row tile m / 2048, output tile o / 1024). -/
theorem cover (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  have hN : cfg1.N = 128 := N_1
  obtain ⟨t, ht⟩ : ∃ t : Fin cfg1.N, t.val = ((i 0).val / 2048 * 4 + (i 1).val / 1024) * 4 + 3 :=
    ⟨⟨((i 0).val / 2048 * 4 + (i 1).val / 1024) * 4 + 3, by rw [hN]; omega⟩, rfl⟩
  obtain ⟨-, -, -, -, -, e5, e6⟩ := idx_facts t
  refine ⟨t, (flush1_3 t).mpr (by omega), ?_⟩
  rw [mem_blk]
  intro a
  match a with
  | ⟨0, _⟩ =>
    show win1_3.index t (0 : Fin 2) * 2048 ≤ (i 0).val ∧ (i 0).val < win1_3.index t (0 : Fin 2) * 2048 + 2048
    rw [e5]; omega
  | ⟨1, _⟩ =>
    show win1_3.index t (1 : Fin 2) * 1024 ≤ (i 1).val ∧ (i 1).val < win1_3.index t (1 : Fin 2) * 1024 + 1024
    rw [e6]; omega

end Region

/-- After region 1, the output window's array is x · Wᵀ + b of the arrays the region found. -/
theorem acc_final (V : (c : Dev nD) → (b : Ref sig .tc) → Buf (Elt Ideal) ((c : Thread nD τ).loc b)) (c : Dev nD) :
    (adat (F := Ideal) V c).arrAt 3 cfg1.N
      = Cert.Spec.linearFlat (V c main_v2) (V c main_v0) (V c main_arg2) :=
  (adat (F := Ideal) V c).arrAt_eq_of_cover 3 (Cert.Spec.linearFlat (V c main_v2) (V c main_v0) (V c main_arg2))
    (fun t hf => flushed_eq V c t hf) cover

end Cert.KernelIdeal.AccVal

end
-- ==== Proof.RefValue.lean ====
/-
  The reference program's result, read at an index. The reference is a composition of host operations: two rank-32
  products A₁·B₁ and A₂·B₂, their entrywise product scaled by ½ and then by the literal 1, the sum with the base weight
  W₀, the contraction of the activations' last axis with the weight's second axis, and the bias broadcast along the
  two leading axes and added. Entry by entry this is y[bb, s, o] = Σ_k x[bb, s, k] · W[o, k] + b[o] with
  W[o, k] = W₀[o, k] + 1 · ((Σ_r A₁[o, r]·B₁[r, k]) · (Σ_r A₂[o, r]·B₂[r, k]) · ½); on the extended reals 1 · z = z for
  every z, so W is the specification's merged weight and y its linear layer. ½ stays the same word on both sides.
-/
import proofs.«109634_j3753801417310_1_alg».proof.Proof.Gen.ReferenceIdeal.Run
import proofs.«109634_j3753801417310_1_alg».proof.Proof.Gen.ReferenceIdeal.Read
import proofs.«109634_j3753801417310_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The float word of 1.0 (sign 0, biased exponent 127, fraction 0) denotes 2²³ · 2⁻²³ = 1. -/
theorem one_word : Ideal.ofBits .f32 0x3F800000#32 = (1 : EReal) := by
  have h : ((8388608 : ℝ) : EReal) * (((2 ^ 23 : ℝ)⁻¹ : ℝ) : EReal) = 1 := by
    rw [← EReal.coe_mul, ← EReal.coe_one]
    congr 1
    norm_num
  simpa [Ideal.ofBits, Ideal.ieee] using h

/-! The index maps of the four low-rank products at the entry (o, k): the left factor is read at (o, r), the right
    factor at (r, k), with r the contracted rank index. -/

theorem lidx0 (o k : Fin 4096) (r : Fin 32) : lidx_main_v0 (ix2 o k) r = ix2 o r :=
  funext fun a => Fin.ext (by match a with | ⟨0, _⟩ => rfl | ⟨1, _⟩ => rfl)
theorem ridx0 (o k : Fin 4096) (r : Fin 32) : ridx_main_v0 (ix2 o k) r = ix2 r k :=
  funext fun a => Fin.ext (by match a with | ⟨0, _⟩ => rfl | ⟨1, _⟩ => rfl)
theorem lidx1 (o k : Fin 4096) (r : Fin 32) : lidx_main_v1 (ix2 o k) r = ix2 o r :=
  funext fun a => Fin.ext (by match a with | ⟨0, _⟩ => rfl | ⟨1, _⟩ => rfl)
theorem ridx1 (o k : Fin 4096) (r : Fin 32) : ridx_main_v1 (ix2 o k) r = ix2 r k :=
  funext fun a => Fin.ext (by match a with | ⟨0, _⟩ => rfl | ⟨1, _⟩ => rfl)

/-- The reference's weight at (o, k): W₀[o,k] + 1 · (((Σ_r A₁[o,r]·B₁[r,k]) · (Σ_r A₂[o,r]·B₂[r,k])) · ½), and 1 · z = z,
    so it is the specification's merged entry, with ½ the same word on both sides. -/
theorem weight_entry (x1 : (⟨S4096x4096, .f32⟩ : BufTy).Contents (Elt Ideal))
    (x3 : (⟨S4096x32, .f32⟩ : BufTy).Contents (Elt Ideal))
    (x4 : (⟨S32x4096, .f32⟩ : BufTy).Contents (Elt Ideal)) (x5 : (⟨S4096x32, .f32⟩ : BufTy).Contents (Elt Ideal))
    (x6 : (⟨S32x4096, .f32⟩ : BufTy).Contents (Elt Ideal)) (o k : Fin 4096) :
    val_main_v7 (F := Ideal) x1 x3 x4 x5 x6 (ix2 o k) = Cert.Spec.mergedEntry x1 x3 x4 x5 x6 o k := by
  rw [val_main_v7_apply, val_main_v6_apply, val_main_v5_apply, val_main_cst_0_apply, val_main_v4_apply,
    val_main_v3_apply, val_main_cst_apply, val_main_v2_apply, val_main_v1_apply, val_main_v0_apply]
  simp only [lidx0, ridx0, lidx1, ridx1, Ideal.addf_def, Ideal.mulf_def, Ideal.ofBits_def, one_word, one_mul]
  unfold Cert.Spec.mergedEntry
  rfl

/-! The index maps of the outer product at (bb, s, o): the activations are read at (bb, s, k), the weight at (o, k),
    and the bias, broadcast along the two leading axes, at o. -/

theorem lidx8 (bb : Fin 4) (s o k : Fin 4096) : lidx_main_v8 (ix3 bb s o) k = ix3 bb s k :=
  funext fun a => Fin.ext (by match a with | ⟨0, _⟩ => rfl | ⟨1, _⟩ => rfl | ⟨2, _⟩ => rfl)
theorem ridx8 (bb : Fin 4) (s o k : Fin 4096) : ridx_main_v8 (ix3 bb s o) k = ix2 o k :=
  funext fun a => Fin.ext (by match a with | ⟨0, _⟩ => rfl | ⟨1, _⟩ => rfl)
theorem bias_idx (bb : Fin 4) (s o : Fin 4096) : idx_main_v9 (idx_main_v10 (ix3 bb s o)) = ix1 o :=
  funext fun a => Fin.ext (by match a with | ⟨0, _⟩ => rfl)

/-- The reference's result is the specification's linear layer over the merged weight. -/
theorem ref_value (x0 : (⟨S4x4096x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x32, .f32⟩ : BufTy).Contents (Elt Ideal))
    (x4 : (⟨S32x4096, .f32⟩ : BufTy).Contents (Elt Ideal)) (x5 : (⟨S4096x32, .f32⟩ : BufTy).Contents (Elt Ideal))
    (x6 : (⟨S32x4096, .f32⟩ : BufTy).Contents (Elt Ideal)) :
    val_main_v11 (F := Ideal) x0 x1 x2 x3 x4 x5 x6 = Cert.Spec.linear3 x0 (Cert.Spec.merged x1 x3 x4 x5 x6) x2 := by
  funext i
  obtain ⟨bb, s, o, rfl⟩ : ∃ (bb : Fin 4) (s : Fin 4096) (o : Fin 4096), i = ix3 bb s o := ⟨i 0, i 1, i 2, eq_ix3 i⟩
  rw [val_main_v11_apply, val_main_v8_apply, val_main_v10_apply, val_main_v9_apply]
  simp only [lidx8, ridx8, bias_idx, weight_entry, Ideal.addf_def]
  unfold Cert.Spec.linear3 Cert.Spec.merged
  rfl

end Cert.ReferenceIdeal.RefValue

end
-- ==== Proof.lean ====
/-
  The certificate of the low-rank Hadamard linear layer: a Pallas program of two kernels against its jnp reference,
  over the extended reals.

  Both programs compute, for activations x, base weight W₀, bias b and rank-32 factors A₁ B₁ A₂ B₂,

      y = x · Wᵀ + b      with      W = W₀ + (A₁·B₁) ∘ (A₂·B₂) · ½ .

  The kernel program builds W tile by tile in its first kernel (each 1024 × 1024 tile from the tile of W₀ and the
  factors' strips), narrows it and the activations to bf16 — the identity on the extended reals —, and in its second
  kernel accumulates the product over four k-steps of 1024 into a scratch accumulator that it zeroes on the first step,
  adding the bias on the last. The reference forms W with whole-array operations, multiplies the low-rank update by the
  literal 1 (the identity on the extended reals), and takes one dot product over all 4096 terms. The two results agree
  entry by entry because a sum over 4096 terms is the sum of its four slices' sums, addition on the extended reals being
  commutative and associative with 0 neutral: no finiteness of the inputs is used, and nothing is distributed.

  The frames (each program runs to its end, faults nowhere and leaves its arguments as launched) are, for the two kernel
  programs, one run of @main stated at any float instance — the two kernels as pipeline regions among the host's
  reshapes, the second region's invariant carrying the accumulator between grid points —, and for the reference its run
  of host operations. The ideal pass rewrote nothing, so the idealized kernel is the kernel's own text.
-/
import proofs.«109634_j3753801417310_1_alg».proof.Defs
import proofs.«109634_j3753801417310_1_alg».proof.Proof.Gen.Kernel
import proofs.«109634_j3753801417310_1_alg».proof.Proof.Gen.KernelIdeal
import proofs.«109634_j3753801417310_1_alg».proof.Proof.Gen.ReferenceIdeal
import proofs.«109634_j3753801417310_1_alg».proof.Proof.Gen.Pre_finite_inputs
import proofs.«109634_j3753801417310_1_alg».proof.Proof.Gen.ReferenceIdeal.Run
import proofs.«109634_j3753801417310_1_alg».proof.Proof.Gen.ReferenceIdeal.Read
import proofs.«109634_j3753801417310_1_alg».proof.Proof.Bits.MainRun
import proofs.«109634_j3753801417310_1_alg».proof.Proof.MainRun
import proofs.«109634_j3753801417310_1_alg».proof.Proof.KernelValue
import proofs.«109634_j3753801417310_1_alg».proof.Proof.WeightValue
import proofs.«109634_j3753801417310_1_alg».proof.Proof.AccValue
import proofs.«109634_j3753801417310_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Frm.frame (F := Bits) m ρ

/-- So does its reading at the ideal instance. -/
theorem frame_kernelIdeal : Cert.frame_KernelIdeal := fun m ρ _ => Cert.KernelIdeal.Frm.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the linear layer over the merged weight of those
    arguments in their result buffers. -/
theorem algebraic : Cert.algebraic_KernelIdeal_ReferenceIdeal := by
  intro m ρ m' ρ' _ hagree
  refine ⟨_, Cert.KernelIdeal.Val.run_value m Cert.KernelIdeal.WeightVal.weight_final Cert.KernelIdeal.AccVal.acc_final ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_value,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
